-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S8x5120x3 : Shape := ⟨3, ![8, 5120, 3]⟩
abbrev S11x150 : Shape := ⟨2, ![11, 150]⟩
abbrev S1686x768 : Shape := ⟨2, ![1686, 768]⟩
abbrev S768 : Shape := ⟨1, ![768]⟩
abbrev S768x57 : Shape := ⟨2, ![768, 57]⟩
abbrev S57 : Shape := ⟨1, ![57]⟩
abbrev S_ : Shape := ⟨0, ![]⟩
abbrev S8x5120x1 : Shape := ⟨3, ![8, 5120, 1]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S11x150 : S_.BroadcastsInDim S11x150 (![] : Fin 0 → Fin S11x150.rank)
  reducesTo_S11x150_S_d0_1 : S11x150.ReducesTo [0, 1] S_
  bcast_S_S1686x768 : S_.BroadcastsInDim S1686x768 (![] : Fin 0 → Fin S1686x768.rank)
  reducesTo_S1686x768_S_d0_1 : S1686x768.ReducesTo [0, 1] S_
  bcast_S_S768 : S_.BroadcastsInDim S768 (![] : Fin 0 → Fin S768.rank)
  reducesTo_S768_S_d0 : S768.ReducesTo [0] S_
  bcast_S_S768x57 : S_.BroadcastsInDim S768x57 (![] : Fin 0 → Fin S768x57.rank)
  reducesTo_S768x57_S_d0_1 : S768x57.ReducesTo [0, 1] S_
  bcast_S_S57 : S_.BroadcastsInDim S57 (![] : Fin 0 → Fin S57.rank)
  reducesTo_S57_S_d0 : S57.ReducesTo [0] S_
  bcast_S_S8x5120x3 : S_.BroadcastsInDim S8x5120x3 (![] : Fin 0 → Fin S8x5120x3.rank)
  reducesTo_S8x5120x3_S_d0_1_2 : S8x5120x3.ReducesTo [0, 1, 2] S_
  slices_S8x5120x3_S8x5120x1_0_0_0 : S8x5120x3.Slices ![0, 0, 0] S8x5120x1
  bcast_S_S8x5120x1 : S_.BroadcastsInDim S8x5120x1 (![] : Fin 0 → Fin S8x5120x1.rank)
  reducesTo_S8x5120x1_S_d0_1_2 : S8x5120x1.ReducesTo [0, 1, 2] S_
  slices_S8x5120x3_S8x5120x1_0_0_1 : S8x5120x3.Slices ![0, 0, 1] S8x5120x1
  slices_S8x5120x3_S8x5120x1_0_0_2 : S8x5120x3.Slices ![0, 0, 2] S8x5120x1

variable [Facts]

def fn_part2 {F : FTy → Type} [FloatOps F] (main_arg1 : IVec S8x5120x3 32) (main_v32 : IVec S_ 1) (main_v33 : IVec S8x5120x1 32) : IVec S_ 1 :=
  let main_c_12 : IVec S_ 32 := constantI S_ 32 512#32
  let main_v34 : IVec S8x5120x1 32 := broadcastInDim S8x5120x1 ![] bcast_S_S8x5120x1 main_c_12
  let main_v35 : IVec S8x5120x1 1 := cmpi .slt main_v33 main_v34
  let main_c_13 : IVec S_ 1 := constantI S_ 1 1#1
  let main_v36 : IVec S_ 1 := (fun x v => Host.reduce IntOp.andi x v reducesTo_S8x5120x1_S_d0_1_2 h_S_) main_v35 main_c_13
  let main_v37 : IVec S_ 1 := andi main_v32 main_v36
  let main_v38 : IVec S8x5120x1 32 := (extractStridedSlice S8x5120x1 ![0, 0, 1] · slices_S8x5120x3_S8x5120x1_0_0_1) main_arg1
  let main_c_14 : IVec S_ 32 := constantI S_ 32 512#32
  let main_v39 : IVec S8x5120x1 32 := broadcastInDim S8x5120x1 ![] bcast_S_S8x5120x1 main_c_14
  let main_v40 : IVec S8x5120x1 1 := cmpi .slt main_v38 main_v39
  let main_c_15 : IVec S_ 1 := constantI S_ 1 1#1
  let main_v41 : IVec S_ 1 := (fun x v => Host.reduce IntOp.andi x v reducesTo_S8x5120x1_S_d0_1_2 h_S_) main_v40 main_c_15
  let main_v42 : IVec S_ 1 := andi main_v37 main_v41
  let main_v43 : IVec S8x5120x1 32 := (extractStridedSlice S8x5120x1 ![0, 0, 2] · slices_S8x5120x3_S8x5120x1_0_0_2) main_arg1
  let main_c_16 : IVec S_ 32 := constantI S_ 32 11#32
  let main_v44 : IVec S8x5120x1 32 := broadcastInDim S8x5120x1 ![] bcast_S_S8x5120x1 main_c_16
  let main_v45 : IVec S8x5120x1 1 := cmpi .slt main_v43 main_v44
  let main_c_17 : IVec S_ 1 := constantI S_ 1 1#1
  let main_v46 : IVec S_ 1 := (fun x v => Host.reduce IntOp.andi x v reducesTo_S8x5120x1_S_d0_1_2 h_S_) main_v45 main_c_17
  let main_v47 : IVec S_ 1 := andi main_v42 main_v46
  main_v47

def fn_part1 {F : FTy → Type} [FloatOps F] (main_arg1 : IVec S8x5120x3 32) (main_arg5 : FVec F S768x57 .f32) (main_arg6 : FVec F S57 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x57 .f32 := Host.absf main_arg5
  let main_cst_6 : FVec F S_ .f32 := constant S_ .f32 0x7F800000#32
  let main_v20 : FVec F S768x57 .f32 := broadcastInDim S768x57 ![] bcast_S_S768x57 main_cst_6
  let main_v21 : IVec S768x57 1 := cmpf .olt main_v19 main_v20
  let main_c_7 : IVec S_ 1 := constantI S_ 1 1#1
  let main_v22 : IVec S_ 1 := (fun x v => Host.reduce IntOp.andi x v reducesTo_S768x57_S_d0_1 h_S_) main_v21 main_c_7
  let main_v23 : IVec S_ 1 := andi main_v18 main_v22
  let main_v24 : FVec F S57 .f32 := Host.absf main_arg6
  let main_cst_8 : FVec F S_ .f32 := constant S_ .f32 0x7F800000#32
  let main_v25 : FVec F S57 .f32 := broadcastInDim S57 ![] bcast_S_S57 main_cst_8
  let main_v26 : IVec S57 1 := cmpf .olt main_v24 main_v25
  let main_c_9 : IVec S_ 1 := constantI S_ 1 1#1
  let main_v27 : IVec S_ 1 := (fun x v => Host.reduce IntOp.andi x v reducesTo_S57_S_d0 h_S_) main_v26 main_c_9
  let main_v28 : IVec S_ 1 := andi main_v23 main_v27
  let main_c_10 : IVec S_ 32 := constantI S_ 32 0#32
  let main_v29 : IVec S8x5120x3 32 := broadcastInDim S8x5120x3 ![] bcast_S_S8x5120x3 main_c_10
  let main_v30 : IVec S8x5120x3 1 := cmpi .sge main_arg1 main_v29
  let main_c_11 : IVec S_ 1 := constantI S_ 1 1#1
  let main_v31 : IVec S_ 1 := (fun x v => Host.reduce IntOp.andi x v reducesTo_S8x5120x3_S_d0_1_2 h_S_) main_v30 main_c_11
  let main_v32 : IVec S_ 1 := andi main_v28 main_v31
  let main_v33 : IVec S8x5120x1 32 := (extractStridedSlice S8x5120x1 ![0, 0, 0] · slices_S8x5120x3_S8x5120x1_0_0_0) main_arg1
  fn_part2 (F := F) main_arg1 main_v32 main_v33

def fn {F : FTy → Type} [FloatOps F] (main_arg0 : FVec F S8x512x768 .f32) (main_arg1 : IVec S8x5120x3 32) (main_arg2 : FVec F S11x150 .f32) (main_arg3 : FVec F S1686x768 .f32) (main_arg4 : FVec F S768 .f32) (main_arg5 : FVec F S768x57 .f32) (main_arg6 : FVec F S57 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S11x150 .f32 := Host.absf main_arg2
  let main_cst_0 : FVec F S_ .f32 := constant S_ .f32 0x7F800000#32
  let main_v5 : FVec F S11x150 .f32 := broadcastInDim S11x150 ![] bcast_S_S11x150 main_cst_0
  let main_v6 : IVec S11x150 1 := cmpf .olt main_v4 main_v5
  let main_c_1 : IVec S_ 1 := constantI S_ 1 1#1
  let main_v7 : IVec S_ 1 := (fun x v => Host.reduce IntOp.andi x v reducesTo_S11x150_S_d0_1 h_S_) main_v6 main_c_1
  let main_v8 : IVec S_ 1 := andi main_v3 main_v7
  let main_v9 : FVec F S1686x768 .f32 := Host.absf main_arg3
  let main_cst_2 : FVec F S_ .f32 := constant S_ .f32 0x7F800000#32
  let main_v10 : FVec F S1686x768 .f32 := broadcastInDim S1686x768 ![] bcast_S_S1686x768 main_cst_2
  let main_v11 : IVec S1686x768 1 := cmpf .olt main_v9 main_v10
  let main_c_3 : IVec S_ 1 := constantI S_ 1 1#1
  let main_v12 : IVec S_ 1 := (fun x v => Host.reduce IntOp.andi x v reducesTo_S1686x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg1 main_arg5 main_arg6 main_v13 main_v16
-- ==== Kernel.lean ====
abbrev S8x512x768 : Shape := ⟨3, ![8, 512, 768]⟩
abbrev S8x5120x3 : Shape := ⟨3, ![8, 5120, 3]⟩
abbrev S11x150 : Shape := ⟨2, ![11, 150]⟩
abbrev S1686x768 : Shape := ⟨2, ![1686, 768]⟩
abbrev S768 : Shape := ⟨1, ![768]⟩
abbrev S768x57 : Shape := ⟨2, ![768, 57]⟩
abbrev S57 : Shape := ⟨1, ![57]⟩
abbrev S8x5120x57 : Shape := ⟨3, ![8, 5120, 57]⟩
abbrev S1x512x768 : Shape := ⟨3, ![1, 512, 768]⟩
abbrev S1x512x3 : Shape := ⟨3, ![1, 512, 3]⟩
abbrev S1x512x57 : Shape := ⟨3, ![1, 512, 57]⟩
abbrev S512x768 : Shape := ⟨2, ![512, 768]⟩
abbrev S512x3 : Shape := ⟨2, ![512, 3]⟩
abbrev S512x1 : Shape := ⟨2, ![512, 1]⟩
abbrev S512 : Shape := ⟨1, ![512]⟩
abbrev S512x512 : Shape := ⟨2, ![512, 512]⟩
abbrev S512x11 : Shape := ⟨2, ![512, 11]⟩
abbrev S512x150 : Shape := ⟨2, ![512, 150]⟩
abbrev S512x1686 : Shape := ⟨2, ![512, 1686]⟩
abbrev S1x768 : Shape := ⟨2, ![1, 768]⟩
abbrev S512x57 : Shape := ⟨2, ![512, 57]⟩
abbrev S1x57 : Shape := ⟨2, ![1, 57]⟩

abbrev nBuf : Space → Nat
  | .hbm => 12
  | .vmem => 11
  | .smem => 0
  | _ => 0

abbrev bufTy : (tb : Table) → Fin (tcTables nBuf tb) → BufTy
  | .hbm, ⟨0, _⟩ => ⟨S8x512x768, .f32⟩
  | .hbm, ⟨1, _⟩ => ⟨S8x5120x3, .i32⟩
  | .hbm, ⟨2, _⟩ => ⟨S11x150, .f32⟩
  | .hbm, ⟨3, _⟩ => ⟨S1686x768, .f32⟩
  | .hbm, ⟨4, _⟩ => ⟨S768, .f32⟩
  | .hbm, ⟨5, _⟩ => ⟨S768x57, .f32⟩
  | .hbm, ⟨6, _⟩ => ⟨S57, .f32⟩
  | .hbm, ⟨7, _⟩ => ⟨S8x512x768, .bf16⟩
  | .hbm, ⟨8, _⟩ => ⟨S11x150, .bf16⟩
  | .hbm, ⟨9, _⟩ => ⟨S1686x768, .bf16⟩
  | .hbm, ⟨10, _⟩ => ⟨S768x57, .bf16⟩
  | .hbm, ⟨11, _⟩ => ⟨S8x5120x57, .f32⟩
  | .local _ .vmem, ⟨0, _⟩ => ⟨S1x512x768, .bf16⟩
  | .local _ .vmem, ⟨1, _⟩ => ⟨S1x512x768, .bf16⟩
  | .local _ .vmem, ⟨2, _⟩ => ⟨S1x512x3, .i32⟩
  | .local _ .vmem, ⟨3, _⟩ => ⟨S1x512x3, .i32⟩
  | .local _ .vmem, ⟨4, _⟩ => ⟨S11x150, .bf16⟩
  | .local _ .vmem, ⟨5, _⟩ => ⟨S1686x768, .bf16⟩
  | .local _ .vmem, ⟨6, _⟩ => ⟨S768, .f32⟩
  | .local _ .vmem, ⟨7, _⟩ => ⟨S768x57, .bf16⟩
  | .local _ .vmem, ⟨8, _⟩ => ⟨S57, .f32⟩
  | .local _ .vmem, ⟨9, _⟩ => ⟨S1x512x57, .f32⟩
  | .local _ .vmem, ⟨10, _⟩ => ⟨S1x512x57, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S11x150 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1686x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x57 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S57 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x57 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  shapeCasts_S512x1_S512 : S512x1.ShapeCasts S512
  slices_S512x3_o0_1_S512x1 : S512x3.Slices ![0, 1] S512x1
  slices_S512x3_o0_2_S512x1 : S512x3.Slices ![0, 2] S512x1
  iota_S512x512_d1_w32 : S512x512.Iotas .tc 32 [1]
  shapeCasts_S512_S512x1 : S512.ShapeCasts S512x1
  broadcasts_S512x1_S512x512 : S512x1.Broadcasts S512x512
  natLt_1_32 : 1 < 32
  iota_S512x11_d1_w32 : S512x11.Iotas .tc 32 [1]
  broadcasts_S512x1_S512x11 : S512x1.Broadcasts S512x11
  inb_S11x150_S11x150_0_0 : ∀ a, (![0, 0] : Fin 2 → Nat) a + S11x150.size a ≤ S11x150.size a
  h_S11x150 : 0 < S11x150.numel
  shapeCasts_S11x150_S11x150 : S11x150.ShapeCasts S11x150
  concatenates_S512x768_S512x768_S512x150_S512x1686_d1 : Shape.Concatenates [S512x768, S512x768, S512x150] S512x1686 1
  inb_S1686x768_S1686x768_0_0 : ∀ a, (![0, 0] : Fin 2 → Nat) a + S1686x768.size a ≤ S1686x768.size a
  h_S1686x768 : 0 < S1686x768.numel
  shapeCasts_S1686x768_S1686x768 : S1686x768.ShapeCasts S1686x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S768x57_S768x57_0_0 : ∀ a, (![0, 0] : Fin 2 → Nat) a + S768x57.size a ≤ S768x57.size a
  h_S768x57 : 0 < S768x57.numel
  shapeCasts_S768x57_S768x57 : S768x57.ShapeCasts S768x57
  inb_S57_S57_0 : ∀ a, (![0] : Fin 1 → Nat) a + S57.size a ≤ S57.size a
  h_S57 : 0 < S57.numel
  shapeCasts_S57_S1x57 : S57.ShapeCasts S1x57
  broadcasts_S1x57_S512x57 : S1x57.Broadcasts S512x57
  inb_S1x512x57_S1x512x57_0_0_0 : ∀ a, (![0, 0, 0] : Fin 3 → Nat) a + S1x512x57.size a ≤ S1x512x57.size a
  h_S1x512x57 : 0 < S1x512x57.numel
  shapeCasts_S1x512x57_S512x57 : S1x512x57.ShapeCasts S512x57
  shapeCasts_S512x57_S1x512x57 : S512x57.ShapeCasts S1x512x57
  dot_S512x512_S512x768_S512x768_1_0_0_1_n_n_wf : DotDims.WF S512x512 S512x768 S512x768 [1] [0] [0] [1] [] []
  dot_S512x11_S11x150_S512x150_1_0_0_1_n_n_wf : DotDims.WF S512x11 S11x150 S512x150 [1] [0] [0] [1] [] []
  dot_S512x1686_S1686x768_S512x768_1_0_0_1_n_n_wf : DotDims.WF S512x1686 S1686x768 S512x768 [1] [0] [0] [1] [] []
  dot_S512x768_S768x57_S512x57_1_0_0_1_n_n_wf : DotDims.WF S512x768 S768x57 S512x57 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x512x768.size a
  hwx0_0 : ∀ i : grid0.Coords, EltTy.bits .bf16 = 32 ∨ (Rect.block (s := S8x512x768) S1x512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x5120x3.size a
  hwx0_1 : ∀ i : grid0.Coords, EltTy.bits .i32 = 32 ∨ (Rect.block (s := S8x5120x3) S1x512x3.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x150.size a ≤ S11x150.size a
  hwx0_2 : ∀ i : grid0.Coords, EltTy.bits .bf16 = 32 ∨ (Rect.block (s := S11x150) S11x150.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1686x768.size a ≤ S1686x768.size a
  hwx0_3 : ∀ i : grid0.Coords, EltTy.bits .bf16 = 32 ∨ (Rect.block (s := S1686x768) S1686x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x57.size a ≤ S768x57.size a
  hwx0_5 : ∀ i : grid0.Coords, EltTy.bits .bf16 = 32 ∨ (Rect.block (s := S768x57) S768x57.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S57.size a ≤ S57.size a
  hwx0_6 : ∀ i : grid0.Coords, EltTy.bits .f32 = 32 ∨ (Rect.block (s := S57) S57.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x57.size a ≤ S8x5120x57.size a
  hwx0_7 : ∀ i : grid0.Coords, EltTy.bits .f32 = 32 ∨ (Rect.block (s := S8x5120x57) S1x512x57.size (cc0_transform_7 i) (hinb0_7 i)).WholeWords (EltTy.packing .f32)

variable [Facts₀]

def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x11_S11x150_S512x150_1_0_0_1_n_n : DotDims S512x11 S11x150 S512x150 where
  lhsContracting := [1]
  rhsContracting := [0]
  lhsNonContracting := [0]
  rhsNonContracting := [1]
  lhsBatch := []
  rhsBatch := []
  wf := dot_S512x11_S11x150_S512x150_1_0_0_1_n_n_wf
def dot_S512x1686_S1686x768_S512x768_1_0_0_1_n_n : DotDims S512x1686 S1686x768 S512x768 where
  lhsContracting := [1]
  rhsContracting := [0]
  lhsNonContracting := [0]
  rhsNonContracting := [1]
  lhsBatch := []
  rhsBatch := []
  wf := dot_S512x1686_S1686x768_S512x768_1_0_0_1_n_n_wf
def dot_S512x768_S768x57_S512x57_1_0_0_1_n_n : DotDims S512x768 S768x57 S512x57 where
  lhsContracting := [1]
  rhsContracting := [0]
  lhsNonContracting := [0]
  rhsNonContracting := [1]
  lhsBatch := []
  rhsBatch := []
  wf := dot_S512x768_S768x57_S512x57_1_0_0_1_n_n_wf

abbrev win0_0 : Pipeline.Window sig grid0 :=
  Pipeline.Window.ofSpec (Memref.whole main_v0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S11x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1686x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S768x57.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S57.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512x57.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S8x5120x3 : Shape := ⟨3, ![8, 5120, 3]⟩
abbrev S11x150 : Shape := ⟨2, ![11, 150]⟩
abbrev S1686x768 : Shape := ⟨2, ![1686, 768]⟩
abbrev S768 : Shape := ⟨1, ![768]⟩
abbrev S768x57 : Shape := ⟨2, ![768, 57]⟩
abbrev S57 : Shape := ⟨1, ![57]⟩
abbrev S8x5120x1 : Shape := ⟨3, ![8, 5120, 1]⟩
abbrev S8x5120 : Shape := ⟨2, ![8, 5120]⟩
abbrev S_ : Shape := ⟨0, ![]⟩
abbrev S1 : Shape := ⟨1, ![1]⟩
abbrev S1x1x1 : Shape := ⟨3, ![1, 1, 1]⟩
abbrev S8x5120x768 : Shape := ⟨3, ![8, 5120, 768]⟩
abbrev S8x5120x150 : Shape := ⟨3, ![8, 5120, 150]⟩
abbrev S8x5120x1686 : Shape := ⟨3, ![8, 5120, 1686]⟩
abbrev S1x1x768 : Shape := ⟨3, ![1, 1, 768]⟩
abbrev S8x5120x57 : Shape := ⟨3, ![8, 5120, 57]⟩
abbrev S1x1x57 : Shape := ⟨3, ![1, 1, 57]⟩

abbrev nBuf : Space → Nat
  | .hbm => 80
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S8x5120x3, .i32⟩
  | .hbm, ⟨2, _⟩ => ⟨S11x150, .f32⟩
  | .hbm, ⟨3, _⟩ => ⟨S1686x768, .f32⟩
  | .hbm, ⟨4, _⟩ => ⟨S768, .f32⟩
  | .hbm, ⟨5, _⟩ => ⟨S768x57, .f32⟩
  | .hbm, ⟨6, _⟩ => ⟨S57, .f32⟩
  | .hbm, ⟨7, _⟩ => ⟨S8x5120x1, .i32⟩
  | .hbm, ⟨8, _⟩ => ⟨S8x5120, .i32⟩
  | .hbm, ⟨9, _⟩ => ⟨S8x5120x1, .i32⟩
  | .hbm, ⟨10, _⟩ => ⟨S8x5120, .i32⟩
  | .hbm, ⟨11, _⟩ => ⟨S8x5120x1, .i32⟩
  | .hbm, ⟨12, _⟩ => ⟨S8x5120, .i32⟩
  | .hbm, ⟨13, _⟩ => ⟨S8x5120x1, .i32⟩
  | .hbm, ⟨14, _⟩ => ⟨S_, .i32⟩
  | .hbm, ⟨15, _⟩ => ⟨S8x5120x1, .i32⟩
  | .hbm, ⟨16, _⟩ => ⟨S8x5120x1, .i1⟩
  | .hbm, ⟨17, _⟩ => ⟨S_, .i32⟩
  | .hbm, ⟨18, _⟩ => ⟨S8x5120x1, .i32⟩
  | .hbm, ⟨19, _⟩ => ⟨S8x5120x1, .i32⟩
  | .hbm, ⟨20, _⟩ => ⟨S8x5120x1, .i32⟩
  | .hbm, ⟨21, _⟩ => ⟨S1, .i32⟩
  | .hbm, ⟨22, _⟩ => ⟨S_, .i32⟩
  | .hbm, ⟨23, _⟩ => ⟨S8x5120x1, .i32⟩
  | .hbm, ⟨24, _⟩ => ⟨S8x5120x1, .i1⟩
  | .hbm, ⟨25, _⟩ => ⟨S1x1x1, .i32⟩
  | .hbm, ⟨26, _⟩ => ⟨S8x5120x1, .i32⟩
  | .hbm, ⟨27, _⟩ => ⟨S8x5120x1, .i1⟩
  | .hbm, ⟨28, _⟩ => ⟨S8x5120x1, .i1⟩
  | .hbm, ⟨29, _⟩ => ⟨S_, .i1⟩
  | .hbm, ⟨30, _⟩ => ⟨S8x5120, .i1⟩
  | .hbm, ⟨31, _⟩ => ⟨S8x5120x768, .f32⟩
  | .hbm, ⟨32, _⟩ => ⟨S8x5120x768, .i1⟩
  | .hbm, ⟨33, _⟩ => ⟨S_, .f32⟩
  | .hbm, ⟨34, _⟩ => ⟨S8x5120x768, .f32⟩
  | .hbm, ⟨35, _⟩ => ⟨S8x5120x768, .f32⟩
  | .hbm, ⟨36, _⟩ => ⟨S8x5120x1, .i32⟩
  | .hbm, ⟨37, _⟩ => ⟨S_, .i32⟩
  | .hbm, ⟨38, _⟩ => ⟨S8x5120x1, .i32⟩
  | .hbm, ⟨39, _⟩ => ⟨S8x5120x1, .i1⟩
  | .hbm, ⟨40, _⟩ => ⟨S_, .i32⟩
  | .hbm, ⟨41, _⟩ => ⟨S8x5120x1, .i32⟩
  | .hbm, ⟨42, _⟩ => ⟨S8x5120x1, .i32⟩
  | .hbm, ⟨43, _⟩ => ⟨S8x5120x1, .i32⟩
  | .hbm, ⟨44, _⟩ => ⟨S1, .i32⟩
  | .hbm, ⟨45, _⟩ => ⟨S_, .i32⟩
  | .hbm, ⟨46, _⟩ => ⟨S8x5120x1, .i32⟩
  | .hbm, ⟨47, _⟩ => ⟨S8x5120x1, .i1⟩
  | .hbm, ⟨48, _⟩ => ⟨S1x1x1, .i32⟩
  | .hbm, ⟨49, _⟩ => ⟨S8x5120x1, .i32⟩
  | .hbm, ⟨50, _⟩ => ⟨S8x5120x1, .i1⟩
  | .hbm, ⟨51, _⟩ => ⟨S8x5120x1, .i1⟩
  | .hbm, ⟨52, _⟩ => ⟨S_, .i1⟩
  | .hbm, ⟨53, _⟩ => ⟨S8x5120, .i1⟩
  | .hbm, ⟨54, _⟩ => ⟨S8x5120x768, .f32⟩
  | .hbm, ⟨55, _⟩ => ⟨S8x5120x768, .i1⟩
  | .hbm, ⟨56, _⟩ => ⟨S_, .f32⟩
  | .hbm, ⟨57, _⟩ => ⟨S8x5120x768, .f32⟩
  | .hbm, ⟨58, _⟩ => ⟨S8x5120x768, .f32⟩
  | .hbm, ⟨59, _⟩ => ⟨S_, .i32⟩
  | .hbm, ⟨60, _⟩ => ⟨S8x5120, .i32⟩
  | .hbm, ⟨61, _⟩ => ⟨S8x5120, .i1⟩
  | .hbm, ⟨62, _⟩ => ⟨S_, .i32⟩
  | .hbm, ⟨63, _⟩ => ⟨S8x5120, .i32⟩
  | .hbm, ⟨64, _⟩ => ⟨S8x5120, .i32⟩
  | .hbm, ⟨65, _⟩ => ⟨S8x5120, .i32⟩
  | .hbm, ⟨66, _⟩ => ⟨S8x5120x1, .i32⟩
  | .hbm, ⟨67, _⟩ => ⟨S8x5120x150, .f32⟩
  | .hbm, ⟨68, _⟩ => ⟨S8x5120x1686, .f32⟩
  | .hbm, ⟨69, _⟩ => ⟨S8x5120x768, .f32⟩
  | .hbm, ⟨70, _⟩ => ⟨S1x1x768, .f32⟩
  | .hbm, ⟨71, _⟩ => ⟨S8x5120x768, .f32⟩
  | .hbm, ⟨72, _⟩ => ⟨S8x5120x768, .f32⟩
  | .hbm, ⟨73, _⟩ => ⟨S_, .f32⟩
  | .hbm, ⟨74, _⟩ => ⟨S8x5120x768, .f32⟩
  | .hbm, ⟨75, _⟩ => ⟨S8x5120x768, .f32⟩
  | .hbm, ⟨76, _⟩ => ⟨S8x5120x57, .f32⟩
  | .hbm, ⟨77, _⟩ => ⟨S1x1x57, .f32⟩
  | .hbm, ⟨78, _⟩ => ⟨S8x5120x57, .f32⟩
  | .hbm, ⟨79, _⟩ => ⟨S8x5120x57, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_c_2 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v7 : Ref sig .tc := ⟨.hbm, 35, rfl⟩
abbrev main_v8 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_c_2 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_c_3 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v9 : Ref sig .tc := ⟨.hbm, 58, rfl⟩
abbrev main_c : Ref sig .tc := ⟨.hbm, 59, rfl⟩
abbrev main_v10 : Ref sig .tc := ⟨.hbm, 60, rfl⟩
abbrev main_v11 : Ref sig .tc := ⟨.hbm, 61, rfl⟩
abbrev main_c_0 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_call2_cst : Ref sig .tc := ⟨.hbm, 73, rfl⟩
abbrev main_call2_v0 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩

abbrev nD : Nat := 1
abbrev τ : Topo := Topo.v7x

variable {F : FTy → Type} [FloatOps F]

class Facts₀ : Prop where
  slices_S8x5120x3_S8x5120x1_0_0_0 : S8x5120x3.Slices ![0, 0, 0] S8x5120x1
  shapeCasts_S8x5120x1_S8x5120 : S8x5120x1.ShapeCasts S8x5120
  slices_S8x5120x3_S8x5120x1_0_0_1 : S8x5120x3.Slices ![0, 0, 1] S8x5120x1
  slices_S8x5120x3_S8x5120x1_0_0_2 : S8x5120x3.Slices ![0, 0, 2] S8x5120x1
  bcast_S8x5120_S8x5120x1_0_1 : S8x5120.BroadcastsInDim S8x5120x1 (![0, 1] : Fin 2 → Fin S8x5120x1.rank)
  bcast_S_S8x5120x1 : S_.BroadcastsInDim S8x5120x1 (![] : Fin 0 → Fin S8x5120x1.rank)
  bcast_S1_S1x1x1_2 : S1.BroadcastsInDim S1x1x1 (![2] : Fin 1 → Fin S1x1x1.rank)
  bcast_S1x1x1_S8x5120x1_0_1_2 : S1x1x1.BroadcastsInDim S8x5120x1 (![0, 1, 2] : Fin 3 → Fin S8x5120x1.rank)
  reducesTo_S8x5120x1_S8x5120_d2 : S8x5120x1.ReducesTo [2] S8x5120
  h_S_ : 0 < S_.numel
  bcast_S8x5120_S8x5120x768_0_1 : S8x5120.BroadcastsInDim S8x5120x768 (![0, 1] : Fin 2 → Fin S8x5120x768.rank)
  bcast_S_S8x5120x768 : S_.BroadcastsInDim S8x5120x768 (![] : Fin 0 → Fin S8x5120x768.rank)
  bcast_S_S8x5120 : S_.BroadcastsInDim S8x5120 (![] : Fin 0 → Fin S8x5120.rank)
  concatenates_S8x5120x768_S8x5120x768_S8x5120x150_S8x5120x1686_d2 : Shape.Concatenates [S8x5120x768, S8x5120x768, S8x5120x150] S8x5120x1686 2
  bcast_S768_S1x1x768_2 : S768.BroadcastsInDim S1x1x768 (![2] : Fin 1 → Fin S1x1x768.rank)
  bcast_S1x1x768_S8x5120x768_0_1_2 : S1x1x768.BroadcastsInDim S8x5120x768 (![0, 1, 2] : Fin 3 → Fin S8x5120x768.rank)
  bcast_S57_S1x1x57_2 : S57.BroadcastsInDim S1x1x57 (![2] : Fin 1 → Fin S1x1x57.rank)
  bcast_S1x1x57_S8x5120x57_0_1_2 : S1x1x57.BroadcastsInDim S8x5120x57 (![0, 1, 2] : Fin 3 → Fin S8x5120x57.rank)
  gather_S8x512x768_S8x5120x1_S8x5120x768_2_1_0_0_1_2_11768_wf : GatherDims.WF S8x512x768 S8x5120x1 S8x5120x768 [2] [1] [0] [1] [0] 2 ![1, 1, 768]
  gather_S11x150_S8x5120x1_S8x5120x150_2_0_n_n_0_2_1150_wf : GatherDims.WF S11x150 S8x5120x1 S8x5120x150 [2] [0] [] [0] [] 2 ![1, 150]
  dot_S8x5120x1686_S1686x768_S8x5120x768_2_0_01_1_n_n_wf : DotDims.WF S8x5120x1686 S1686x768 S8x5120x768 [2] [0] [0, 1] [1] [] []
  dot_S8x5120x768_S768x57_S8x5120x57_2_0_01_1_n_n_wf : DotDims.WF S8x5120x768 S768x57 S8x5120x57 [2] [0] [0, 1] [1] [] []

variable [Facts₀]

def gather_S8x512x768_S8x5120x1_S8x5120x768_2_1_0_0_1_2_11768 : GatherDims S8x512x768 S8x5120x1 S8x5120x768 where
  offsetDims := [2]
  collapsedSliceDims := [1]
  operandBatchingDims := [0]
  startIndicesBatchingDims := [0]
  startIndexMap := [1]
  indexVectorDim := 2
  sliceSizes := ![1, 1, 768]
  wf := gather_S8x512x768_S8x5120x1_S8x5120x768_2_1_0_0_1_2_11768_wf
def gather_S11x150_S8x5120x1_S8x5120x150_2_0_n_n_0_2_1150 : GatherDims S11x150 S8x5120x1 S8x5120x150 where
  offsetDims := [2]
  collapsedSliceDims := [0]
  operandBatchingDims := []
  startIndicesBatchingDims := []
  startIndexMap := [0]
  indexVectorDim := 2
  sliceSizes := ![1, 150]
  wf := gather_S11x150_S8x5120x1_S8x5120x150_2_0_n_n_0_2_1150_wf
def dot_S8x5120x1686_S1686x768_S8x5120x768_2_0_01_1_n_n : DotDims S8x5120x1686 S1686x768 S8x5120x768 where
  lhsContracting := [2]
  rhsContracting := [0]
  lhsNonContracting := [0, 1]
  rhsNonContracting := [1]
  lhsBatch := []
  rhsBatch := []
  wf := dot_S8x5120x1686_S1686x768_S8x5120x768_2_0_01_1_n_n_wf
def dot_S8x5120x768_S768x57_S8x5120x57_2_0_01_1_n_n : DotDims S8x5120x768 S768x57 S8x5120x57 where
  lhsContracting := [2]
  rhsContracting := [0]
  lhsNonContracting := [0, 1]
  rhsNonContracting := [1]
  lhsBatch := []
  rhsBatch := []
  wf := dot_S8x5120x768_S768x57_S8x5120x57_2_0_01_1_n_n_wf

class Facts : Prop extends Facts₀ where

variable [Facts]
-- ==== Proof.Spec.lean ====
/-
  The span classifier as ONE function of its argument arrays, over the extended reals.

  A span is a row (start, end, width) of the integer table. Its feature vector lays three table rows side by side: the
  hidden state at position `start`, the hidden state at position `end`, and the embedding of `width`: 768 + 768 + 150 =
  1686 entries. Two dense layers follow: a hidden layer of 768 units with a bias and a clamp at zero from below, and an
  output layer of 57 units with a bias. The result at (batch b, span n, label l) is the output layer's unit l for span n
  of batch b.

  The pieces are stated over plain functions of a coordinate so that they serve twice: over the whole arrays (the
  function `G`), and over one block of 512 spans of one batch.
-/
import Idealize.ShloMosaic.PureOps.Ideal
import Idealize.ShloMosaic.Lib.ValueIdx

noncomputable section

namespace Cert.SpanSpec

open Idealize.ShloMosaic Idealize.ShloMosaic.ValueIdx
open scoped BigOperators

abbrev SHid : Shape := ⟨3, ![8, 512, 768]⟩
abbrev SSpan : Shape := ⟨3, ![8, 5120, 3]⟩
abbrev SWemb : Shape := ⟨2, ![11, 150]⟩
abbrev SW1 : Shape := ⟨2, ![1686, 768]⟩
abbrev SB1 : Shape := ⟨1, ![768]⟩
abbrev SW2 : Shape := ⟨2, ![768, 57]⟩
abbrev SB2 : Shape := ⟨1, ![57]⟩
abbrev SOut : Shape := ⟨3, ![8, 5120, 57]⟩

/-- Every word of the span table names a row of the table it indexes: columns 0 and 1 a position of the 512-long
    sequence, column 2 one of the 11 widths. (A word below 512 is in particular not negative when read signed.) -/
structure InRange (sp : IVec SSpan 32) : Prop where
  start : ∀ (b : Fin 8) (n : Fin 5120), (sp (ix3 b n (0 : Fin 3))).toNat < 512
  stop : ∀ (b : Fin 8) (n : Fin 5120), (sp (ix3 b n (1 : Fin 3))).toNat < 512
  width : ∀ (b : Fin 8) (n : Fin 5120), (sp (ix3 b n (2 : Fin 3))).toNat < 11

/-- The row of an `N`-row table that a word names, held inside the table. -/
def rowOf (N : Nat) (hN : 0 < N) (w : BitVec 32) : Fin N := ⟨min w.toNat (N - 1), by omega⟩

theorem rowOf_val_of_lt {N : Nat} (hN : 0 < N) (w : BitVec 32) (h : w.toNat < N) : (rowOf N hN w).val = w.toNat := by
  unfold rowOf; simp only; omega

/-- The relu's threshold, as the word both programs carry. -/
abbrev zeroF : EReal := Ideal.ofBits .f32 0x00000000#32

/-- A span's 1686 features from the three rows it names: the start row, the end row, the width's row, side by side. -/
def featOf (hs he : Fin 768 → EReal) (wv : Fin 150 → EReal) (d : Fin 1686) : EReal :=
  if h0 : d.val < 768 then hs ⟨d.val, h0⟩
  else if h1 : d.val < 1536 then he ⟨d.val - 768, by omega⟩
  else wv ⟨d.val - 1536, by omega⟩

/-- Hidden unit `j`: the features against column `j` of the first weight matrix, plus the bias, clamped at zero from below. -/
def hiddenOf (f : Fin 1686 → EReal) (W1 : FVec Ideal SW1 .f32) (b1 : FVec Ideal SB1 .f32) (j : Fin 768) : EReal :=
  max ((∑ d : Fin 1686, f d * W1 (ix2 d j)) + b1 (ix1 j)) zeroF

/-- Output unit `l`: the hidden units against column `l` of the second weight matrix, plus the bias. -/
def logitOf (f : Fin 1686 → EReal) (W1 : FVec Ideal SW1 .f32) (b1 : FVec Ideal SB1 .f32) (W2 : FVec Ideal SW2 .f32)
    (b2 : FVec Ideal SB2 .f32) (l : Fin 57) : EReal :=
  (∑ j : Fin 768, hiddenOf f W1 b1 j * W2 (ix2 j l)) + b2 (ix1 l)

/-- The features of span `n` of batch `b`, read off the whole arrays. -/
def featAt (h : FVec Ideal SHid .f32) (sp : IVec SSpan 32) (we : FVec Ideal SWemb .f32) (b : Fin 8) (n : Fin 5120) :
    Fin 1686 → EReal :=
  featOf (fun d => h (ix3 b (rowOf 512 (by decide) (sp (ix3 b n (0 : Fin 3)))) d))
    (fun d => h (ix3 b (rowOf 512 (by decide) (sp (ix3 b n (1 : Fin 3)))) d))
    (fun d => we (ix2 (rowOf 11 (by decide) (sp (ix3 b n (2 : Fin 3)))) d))

/-- The whole result array as one function of the seven argument arrays. -/
def G (h : FVec Ideal SHid .f32) (sp : IVec SSpan 32) (we : FVec Ideal SWemb .f32) (W1 : FVec Ideal SW1 .f32)
    (b1 : FVec Ideal SB1 .f32) (W2 : FVec Ideal SW2 .f32) (b2 : FVec Ideal SB2 .f32) : FVec Ideal SOut .f32 :=
  fun i => logitOf (featAt h sp we (i 0) (i 1)) W1 b1 W2 b2 (i 2)

theorem G_apply (h : FVec Ideal SHid .f32) (sp : IVec SSpan 32) (we : FVec Ideal SWemb .f32) (W1 : FVec Ideal SW1 .f32)
    (b1 : FVec Ideal SB1 .f32) (W2 : FVec Ideal SW2 .f32) (b2 : FVec Ideal SB2 .f32) (b : Fin 8) (n : Fin 5120) (l : Fin 57) :
    G h sp we W1 b1 W2 b2 (ix3 b n l) = logitOf (featAt h sp we b n) W1 b1 W2 b2 l := rfl

end Cert.SpanSpec

end
-- ==== Proof.PreRange.lean ====
/-
  What the precondition says about the span table.

  The precondition is a conjunction of ten one-bit facts, each an "all elements satisfy" of a mask. The last four speak of
  the span table: every word is at least 0 read signed, every word of column 0 is below 512, every word of column 1 is
  below 512, every word of column 2 is below 11 (all read signed). A 32-bit word that is at least 0 and below a bound
  B < 2^31 when read signed is below B when read unsigned, which is the form the value proofs use.
-/
import proofs.«421113_j73753178407290_1_alg».proof.Pre_finite_inputs
import proofs.«421113_j73753178407290_1_alg».proof.Proof.Spec
import Idealize.ShloMosaic.Lib.ReduceAll
import Idealize.ShloMosaic.Lib.StableHlo.Predicate

noncomputable section

namespace Cert.SpanPre

open Idealize.ShloMosaic Idealize.ShloMosaic.ValueIdx Cert.Pre_finite_inputs

/-! ## Words -/

/-- A word that is at least 0 when read signed has its top bit clear: read unsigned it is below 2^31. -/
private theorem toNat_lt_of_sge_zero (w : BitVec 32) (h : IntOp.cmpi .sge w 0#32 = 1#1) : w.toNat < 2 ^ 31 := by
  unfold IntOp.cmpi at h
  simp only [StableHlo.Predicate.ofBool_eq_one_iff, BitVec.sle, decide_eq_true_eq] at h
  have h0 : (0#32 : BitVec 32).toInt = 0 := by decide
  rw [h0, BitVec.toInt_eq_toNat_cond] at h
  have hw : w.toNat < 2 ^ 32 := w.isLt
  split at h <;> omega

/-- A word that is at least 0 and below a bound `c < 2^31`, both read signed, is below `c` read unsigned. -/
private theorem toNat_lt_of_sge_of_slt (w c : BitVec 32) (hc : c.toNat < 2 ^ 31) (h0 : IntOp.cmpi .sge w 0#32 = 1#1)
    (h1 : IntOp.cmpi .slt w c = 1#1) : w.toNat < c.toNat :=
  (StableHlo.Predicate.slt_iff_toNat (toNat_lt_of_sge_zero w h0) hc).1 h1

/-! ## Reading the masks at one element -/

/-- The one-column slice of the span table at column offset `c`, read at (b, n, 0), is the table at (b, n, c). -/
private theorem slice_col (c : Nat) (k : Fin 3) (hk : k.val = c) (hs : S8x5120x3.Slices ![0, 0, c] S8x5120x1)
    (sp : IVec S8x5120x3 32) (b : Fin 8) (n : Fin 5120) :
    extractStridedSlice S8x5120x1 ![0, 0, c] sp hs (ix3 b n (0 : Fin 1)) = sp (ix3 b n k) := by
  unfold extractStridedSlice
  refine congrArg sp (funext fun a => ?_)
  match a with
  | ⟨0, _⟩ => exact Fin.ext (by show 0 + b.val = b.val; omega)
  | ⟨1, _⟩ => exact Fin.ext (by show 0 + n.val = n.val; omega)
  | ⟨2, _⟩ => exact Fin.ext (by show c + 0 = k.val; omega)

/-- One column of the span table: if every word of the table is at least 0 and every word of the one-column slice at
    column offset `c` is below `bound` (both read signed, `bound < 2^31`), the word at (b, n, c) is below `bound` read unsigned.
    The two masks are pointwise comparisons against a broadcast scalar, so each read at an element is the comparison of
    that element's word with the scalar. -/
private theorem col_lt (sp : IVec S8x5120x3 32) (c : Nat) (k : Fin 3) (hk : k.val = c) (hs : S8x5120x3.Slices ![0, 0, c] S8x5120x1)
    (hb3 : S_.BroadcastsInDim S8x5120x3 ![]) (hb1 : S_.BroadcastsInDim S8x5120x1 ![]) (bound : BitVec 32) (hbound : bound.toNat < 2 ^ 31)
    (g0 : ∀ i, cmpi .sge sp (broadcastInDim S8x5120x3 ![] hb3 (constantI S_ 32 0#32)) i = 1#1)
    (g1 : ∀ i, cmpi .slt (extractStridedSlice S8x5120x1 ![0, 0, c] sp hs) (broadcastInDim S8x5120x1 ![] hb1 (constantI S_ 32 bound)) i = 1#1)
    (b : Fin 8) (n : Fin 5120) : (sp (ix3 b n k)).toNat < bound.toNat := by
  have e0 : IntOp.cmpi .sge (sp (ix3 b n k)) 0#32 = 1#1 := g0 (ix3 b n k)
  have e1 : IntOp.cmpi .slt (extractStridedSlice S8x5120x1 ![0, 0, c] sp hs (ix3 b n (0 : Fin 1))) bound = 1#1 :=
    g1 (ix3 b n (0 : Fin 1))
  rw [slice_col c k hk hs sp b n] at e1
  exact toNat_lt_of_sge_of_slt _ _ hbound e0 e1

/-- The result shape of a reduction over all axes has one index. -/
private instance : Subsingleton S_.Idx := ⟨fun a b => funext fun d => d.elim0⟩

/-- Under the precondition every span word names a row of the table it indexes. -/
theorem inRange_of_pre {F : FTy → Type} [FloatOps F] [Cert.Pre_finite_inputs.Facts]
    (a0 : FVec F S8x512x768 .f32) (sp : IVec S8x5120x3 32) (a2 : FVec F S11x150 .f32) (a3 : FVec F S1686x768 .f32)
    (a4 : FVec F S768 .f32) (a5 : FVec F S768x57 .f32) (a6 : FVec F S57 .f32)
    (h : Cert.Pre_finite_inputs.fn (F := F) a0 sp a2 a3 a4 a5 a6 = fun _ => 1#1) : Cert.SpanSpec.InRange sp := by
  have h0 := congrFun h ix0
  dsimp only [fn, fn_part1, fn_part2] at h0
  obtain ⟨h0, h46⟩ := IntOp.andi_eq_one.1 h0
  obtain ⟨h0, h41⟩ := IntOp.andi_eq_one.1 h0
  obtain ⟨h0, h36⟩ := IntOp.andi_eq_one.1 h0
  obtain ⟨-, h31⟩ := IntOp.andi_eq_one.1 h0
  have g31 := Host.reduce_andi_all _ _ _ _ _ h31
  have g36 := Host.reduce_andi_all _ _ _ _ _ h36
  have g41 := Host.reduce_andi_all _ _ _ _ _ h41
  have g46 := Host.reduce_andi_all _ _ _ _ _ h46
  exact ⟨col_lt sp 0 0 rfl _ _ _ 512#32 (by decide) g31 g36, col_lt sp 1 1 rfl _ _ _ 512#32 (by decide) g31 g41,
    col_lt sp 2 2 rfl _ _ _ 11#32 (by decide) g31 g46⟩

end Cert.SpanPre

end
-- ==== Proof.RefGather.lean ====
/-
  The reference's three table look-ups, read at an index, for span words that are in range.

  The two look-ups into the hidden states first turn a negative word into word + 512, then test 0 ≤ word ≤ 511, gather
  the row (the start index clamped into the table) and keep the gathered value where the test holds. For a word below
  512 nothing is turned, the test holds, and the clamp is the identity: the look-up reads row `word` of the same batch.
  The look-up into the width embedding turns a negative word into word + 11 and gathers with the clamp: for a word below
  11 it reads row `word`.

  The file goes in four steps. (1) Words: a word below 2³¹ is not negative when read signed, so the turn keeps it, the
  two range tests hold for a word below 512, and the clamp of a word below N into [0, N − 1] is the word. (2) A conjunction
  folded over any set of indices at which every bit is set, from a set bit, is a set bit. (3) The two gathers read at a
  result index (b, n, d): per operand axis, the start plus the batch coordinate plus the offset coordinate. (4) The
  stages of each look-up chained from the span table to the selected value.
-/
import proofs.«421113_j73753178407290_1_alg».proof.Proof.RefRead
import proofs.«421113_j73753178407290_1_alg».proof.Proof.Spec
import Idealize.ShloMosaic.Lib.StableHlo.Predicate
import Idealize.ShloMosaic.PureOps.Reduce

noncomputable section

namespace Cert.SpanRef

open Cert.ReferenceIdeal Cert.ReferenceIdeal.Gen Cert.ReferenceIdeal.ReadP Idealize.ShloMosaic Idealize.ShloMosaic.ValueIdx
open Cert.SpanSpec

/-! ## Words -/

/-- A word below 2³¹ is not below zero when read signed, so the turn of a negative word keeps it. -/
theorem turn_keeps (w c : BitVec 32) (hw : w.toNat < 2 ^ 31) :
    Scalar.select (IntOp.cmpi .slt w 0#32) (IntOp.addi w c) w = w := by
  have h0 : IntOp.cmpi .slt w 0#32 = 0#1 :=
    eq_zero_of_ne_one fun h => absurd ((StableHlo.Predicate.slt_iff_toNat hw (by decide)).mp h) (by simp)
  rw [h0, select_zero]

/-- A word below 512 passes both range tests 0 ≤ word and word ≤ 511. -/
theorem in_table (w : BitVec 32) (hw : w.toNat < 512) :
    IntOp.andi (IntOp.cmpi .sge w 0#32) (IntOp.cmpi .sle w 511#32) = 1#1 := by
  have h1 : IntOp.cmpi .sge w 0#32 = 1#1 :=
    (StableHlo.Predicate.sge_iff_toNat (by omega) (by decide)).mpr (by simp)
  have h2 : IntOp.cmpi .sle w 511#32 = 1#1 :=
    (StableHlo.Predicate.sle_iff_toNat (by omega) (by decide)).mpr (by
      show w.toNat ≤ (511#32 : BitVec 32).toNat
      have : (511#32 : BitVec 32).toNat = 511 := by decide
      omega)
  rw [h1, h2]; rfl

/-- The clamp of a word below N ≤ 2³¹, read signed, into [0, N − 1] is the row the word names. -/
theorem clamp_row {N : Nat} (hN : 0 < N) (hN' : N ≤ 2 ^ 31) (w : BitVec 32) (hw : w.toNat < N) :
    min w.toInt.toNat (N - 1) = (rowOf N hN w).val := by
  rw [rowOf_val_of_lt hN w hw, StableHlo.Predicate.toInt_eq_toNat_of_lt (by omega), Int.toNat_natCast]
  omega

/-! ## A conjunction of set bits -/

/-- The conjunction, from a set bit, over a set of indices at each of which the bit is set, is a set bit. -/
theorem fold_andi_one {ι : Type} [DecidableEq ι] (S : Finset ι) (f : ι → BitVec 1) (hf : ∀ i ∈ S, f i = 1#1) :
    S.fold IntOp.andi 1#1 f = 1#1 := by
  induction S using Finset.induction_on with
  | empty => rfl
  | insert a S ha ih =>
    rw [Finset.fold_insert ha, hf a (Finset.mem_insert_self a S), ih fun i hi => hf i (Finset.mem_insert_of_mem hi)]
    rfl

/-- A reduction by conjunction of an array of set bits, from a set bit, is a set bit at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_fold, hi]
  exact fold_andi_one _ x fun i _ => hx i

/-! ## The gather of a hidden-state row, read at (b, n, d)

The operand is [8, 512, 768], the start indices [8, 5120, 1], the result [8, 5120, 768]. Axis 0 of the operand is a
batching axis paired with axis 0 of the start indices, axis 1 is collapsed and named by the start index's one component,
axis 2 is kept and read by the result's offset axis 2. -/

/-- The start-indices index (b, n, 0) at which result index (b, n, d) reads its start index's one component. -/
theorem hid_siIdx (b : Fin 8) (n : Fin 5120) (d : Fin 768) (c : Fin gather_S8x512x768_S8x5120x1_S8x5120x768_2_1_0_0_1_2_11768.startIndexMap.length) :
    gather_S8x512x768_S8x5120x1_S8x5120x768_2_1_0_0_1_2_11768.siIdx (ix3 b n d) c = ix3 b n (0 : Fin 1) := by
  funext a; refine Fin.ext ?_
  match a with
  | ⟨0, _⟩ => rfl
  | ⟨1, _⟩ => rfl
  | ⟨2, _⟩ => exact Nat.lt_one_iff.mp c.isLt

/-- Operand axis 0 is the batching axis: the result's batch coordinate b, no start, no offset. -/
theorem hid_axis0 (idx : IVec S8x5120x1 32) (b : Fin 8) (n : Fin 5120) (d : Fin 768) :
    gather_S8x512x768_S8x5120x1_S8x5120x768_2_1_0_0_1_2_11768.start (ix3 b n d) idx 0
      + gather_S8x512x768_S8x5120x1_S8x5120x768_2_1_0_0_1_2_11768.batchCoord (ix3 b n d) 0
      + gather_S8x512x768_S8x5120x1_S8x5120x768_2_1_0_0_1_2_11768.offCoord (ix3 b n d) 0 = b.val := by
  rw [GatherDims.start_batching _ _ _ _ (show (0 : Fin S8x512x768.rank) ∈ gather_S8x512x768_S8x5120x1_S8x5120x768_2_1_0_0_1_2_11768.operandBatchingDims by decide),
    GatherDims.offCoord_eq_zero _ _ _ (show (0 : Fin S8x512x768.rank) ∉ gather_S8x512x768_S8x5120x1_S8x5120x768_2_1_0_0_1_2_11768.sKept by decide)]
  unfold GatherDims.batchCoord
  rw [dif_pos (show (0 : Fin S8x512x768.rank) ∈ gather_S8x512x768_S8x5120x1_S8x5120x768_2_1_0_0_1_2_11768.operandBatchingDims by decide)]
  simp only [Nat.zero_add, Nat.add_zero]
  rfl

/-- Operand axis 1 is the collapsed axis the start index names: the start word read signed, clamped into the table. -/
theorem hid_axis1 (idx : IVec S8x5120x1 32) (b : Fin 8) (n : Fin 5120) (d : Fin 768) :
    gather_S8x512x768_S8x5120x1_S8x5120x768_2_1_0_0_1_2_11768.start (ix3 b n d) idx 1
      + gather_S8x512x768_S8x5120x1_S8x5120x768_2_1_0_0_1_2_11768.batchCoord (ix3 b n d) 1
      + gather_S8x512x768_S8x5120x1_S8x5120x768_2_1_0_0_1_2_11768.offCoord (ix3 b n d) 1
      = min (idx (ix3 b n (0 : Fin 1))).toInt.toNat 511 := by
  rw [GatherDims.batchCoord_eq_zero _ _ _ (show (1 : Fin S8x512x768.rank) ∉ gather_S8x512x768_S8x5120x1_S8x5120x768_2_1_0_0_1_2_11768.operandBatchingDims by decide),
    GatherDims.offCoord_eq_zero _ _ _ (show (1 : Fin S8x512x768.rank) ∉ gather_S8x512x768_S8x5120x1_S8x5120x768_2_1_0_0_1_2_11768.sKept by decide)]
  unfold GatherDims.start
  rw [dif_pos (show (1 : Fin S8x512x768.rank) ∈ gather_S8x512x768_S8x5120x1_S8x5120x768_2_1_0_0_1_2_11768.startIndexMap by decide), hid_siIdx]
  rfl

/-- Operand axis 2 is the one kept axis: the result's offset coordinate d, no start, no batch coordinate. -/
theorem hid_axis2 (idx : IVec S8x5120x1 32) (b : Fin 8) (n : Fin 5120) (d : Fin 768) :
    gather_S8x512x768_S8x5120x1_S8x5120x768_2_1_0_0_1_2_11768.start (ix3 b n d) idx 2
      + gather_S8x512x768_S8x5120x1_S8x5120x768_2_1_0_0_1_2_11768.batchCoord (ix3 b n d) 2
      + gather_S8x512x768_S8x5120x1_S8x5120x768_2_1_0_0_1_2_11768.offCoord (ix3 b n d) 2 = d.val := by
  rw [GatherDims.batchCoord_eq_zero _ _ _ (show (2 : Fin S8x512x768.rank) ∉ gather_S8x512x768_S8x5120x1_S8x5120x768_2_1_0_0_1_2_11768.operandBatchingDims by decide)]
  unfold GatherDims.start GatherDims.offCoord
  rw [dif_neg (show (2 : Fin S8x512x768.rank) ∉ gather_S8x512x768_S8x5120x1_S8x5120x768_2_1_0_0_1_2_11768.startIndexMap by decide),
    dif_pos (show (2 : Fin S8x512x768.rank) ∈ gather_S8x512x768_S8x5120x1_S8x5120x768_2_1_0_0_1_2_11768.sKept by decide)]
  simp only [Nat.zero_add]
  rfl

/-- The gather at (b, n, d): batch b of the operand, the row the start word at (b, n, 0) names (read signed, clamped
    into [0, 511]), feature d. -/
theorem hid_gather_apply {α : Type} (x : S8x512x768.Idx → α) (idx : IVec S8x5120x1 32) (b : Fin 8) (n : Fin 5120) (d : Fin 768) :
    Host.gather gather_S8x512x768_S8x5120x1_S8x5120x768_2_1_0_0_1_2_11768 x idx (ix3 b n d)
      = x (ix3 b (⟨min (idx (ix3 b n (0 : Fin 1))).toInt.toNat 511, by omega⟩ : Fin 512) d) := by
  unfold Host.gather
  congr 1
  funext a
  refine Fin.ext ?_
  match a with
  | ⟨0, _⟩ => exact hid_axis0 idx b n d
  | ⟨1, _⟩ => exact hid_axis1 idx b n d
  | ⟨2, _⟩ => exact hid_axis2 idx b n d

/-- The whole look-up at (b, n, d) from its three ingredients at that index: where the range bit is set and the start
    word is a word below 512, the selected value is the operand's row `word` of batch b at feature d. -/
theorem hid_lookup {α : Type} (x : S8x512x768.Idx → α) (ok : IVec S8x5120x768 1) (idx : IVec S8x5120x1 32)
    (other : S8x5120x768.Idx → α) (b : Fin 8) (n : Fin 5120) (d : Fin 768) (w : BitVec 32)
    (hok : ok (ix3 b n d) = 1#1) (hidx : idx (ix3 b n (0 : Fin 1)) = w) (hw : w.toNat < 512) :
    select ok (Host.gather gather_S8x512x768_S8x5120x1_S8x5120x768_2_1_0_0_1_2_11768 x idx) other (ix3 b n d) = x (ix3 b (rowOf 512 (by decide) w) d) := by
  subst hidx
  rw [select_apply, hok, select_one, hid_gather_apply]
  congr 1
  funext a
  match a with
  | ⟨0, _⟩ => rfl
  | ⟨1, _⟩ => exact Fin.ext (clamp_row (by decide) (by decide) _ hw)
  | ⟨2, _⟩ => rfl

/-! ## The gather of a width-embedding row, read at (b, n, d)

The operand is [11, 150], the start indices [8, 5120, 1], the result [8, 5120, 150]. Axis 0 of the operand is collapsed
and named by the start index's one component, axis 1 is kept and read by the result's offset axis 2; no batching axes. -/

/-- The start-indices index (b, n, 0) at which result index (b, n, d) reads its start index's one component. -/
theorem wid_siIdx (b : Fin 8) (n : Fin 5120) (d : Fin 150) (c : Fin gather_S11x150_S8x5120x1_S8x5120x150_2_0_n_n_0_2_1150.startIndexMap.length) :
    gather_S11x150_S8x5120x1_S8x5120x150_2_0_n_n_0_2_1150.siIdx (ix3 b n d) c = ix3 b n (0 : Fin 1) := by
  funext a; refine Fin.ext ?_
  match a with
  | ⟨0, _⟩ => rfl
  | ⟨1, _⟩ => rfl
  | ⟨2, _⟩ => exact Nat.lt_one_iff.mp c.isLt

/-- Operand axis 0 is the collapsed axis the start index names: the start word read signed, clamped into the table. -/
theorem wid_axis0 (idx : IVec S8x5120x1 32) (b : Fin 8) (n : Fin 5120) (d : Fin 150) :
    gather_S11x150_S8x5120x1_S8x5120x150_2_0_n_n_0_2_1150.start (ix3 b n d) idx 0
      + gather_S11x150_S8x5120x1_S8x5120x150_2_0_n_n_0_2_1150.batchCoord (ix3 b n d) 0
      + gather_S11x150_S8x5120x1_S8x5120x150_2_0_n_n_0_2_1150.offCoord (ix3 b n d) 0
      = min (idx (ix3 b n (0 : Fin 1))).toInt.toNat 10 := by
  rw [GatherDims.batchCoord_eq_zero _ _ _ (show (0 : Fin S11x150.rank) ∉ gather_S11x150_S8x5120x1_S8x5120x150_2_0_n_n_0_2_1150.operandBatchingDims by decide),
    GatherDims.offCoord_eq_zero _ _ _ (show (0 : Fin S11x150.rank) ∉ gather_S11x150_S8x5120x1_S8x5120x150_2_0_n_n_0_2_1150.sKept by decide)]
  unfold GatherDims.start
  rw [dif_pos (show (0 : Fin S11x150.rank) ∈ gather_S11x150_S8x5120x1_S8x5120x150_2_0_n_n_0_2_1150.startIndexMap by decide), wid_siIdx]
  rfl

/-- Operand axis 1 is the one kept axis: the result's offset coordinate d, no start, no batch coordinate. -/
theorem wid_axis1 (idx : IVec S8x5120x1 32) (b : Fin 8) (n : Fin 5120) (d : Fin 150) :
    gather_S11x150_S8x5120x1_S8x5120x150_2_0_n_n_0_2_1150.start (ix3 b n d) idx 1
      + gather_S11x150_S8x5120x1_S8x5120x150_2_0_n_n_0_2_1150.batchCoord (ix3 b n d) 1
      + gather_S11x150_S8x5120x1_S8x5120x150_2_0_n_n_0_2_1150.offCoord (ix3 b n d) 1 = d.val := by
  rw [GatherDims.batchCoord_eq_zero _ _ _ (show (1 : Fin S11x150.rank) ∉ gather_S11x150_S8x5120x1_S8x5120x150_2_0_n_n_0_2_1150.operandBatchingDims by decide)]
  unfold GatherDims.start GatherDims.offCoord
  rw [dif_neg (show (1 : Fin S11x150.rank) ∉ gather_S11x150_S8x5120x1_S8x5120x150_2_0_n_n_0_2_1150.startIndexMap by decide),
    dif_pos (show (1 : Fin S11x150.rank) ∈ gather_S11x150_S8x5120x1_S8x5120x150_2_0_n_n_0_2_1150.sKept by decide)]
  simp only [Nat.zero_add]
  rfl

/-- The gather at (b, n, d): the row the start word at (b, n, 0) names (read signed, clamped into [0, 10]), feature d. -/
theorem wid_gather_apply {α : Type} (x : S11x150.Idx → α) (idx : IVec S8x5120x1 32) (b : Fin 8) (n : Fin 5120) (d : Fin 150) :
    Host.gather gather_S11x150_S8x5120x1_S8x5120x150_2_0_n_n_0_2_1150 x idx (ix3 b n d)
      = x (ix2 (⟨min (idx (ix3 b n (0 : Fin 1))).toInt.toNat 10, by omega⟩ : Fin 11) d) := by
  unfold Host.gather
  congr 1
  funext a
  refine Fin.ext ?_
  match a with
  | ⟨0, _⟩ => exact wid_axis0 idx b n d
  | ⟨1, _⟩ => exact wid_axis1 idx b n d

/-- The look-up at (b, n, d) where the start word is a word below 11: the operand's row `word` at feature d. -/
theorem wid_lookup {α : Type} (x : S11x150.Idx → α) (idx : IVec S8x5120x1 32) (b : Fin 8) (n : Fin 5120) (d : Fin 150)
    (w : BitVec 32) (hidx : idx (ix3 b n (0 : Fin 1)) = w) (hw : w.toNat < 11) :
    Host.gather gather_S11x150_S8x5120x1_S8x5120x150_2_0_n_n_0_2_1150 x idx (ix3 b n d) = x (ix2 (rowOf 11 (by decide) w) d) := by
  subst hidx
  rw [wid_gather_apply]
  congr 1
  funext a
  match a with
  | ⟨0, _⟩ => exact Fin.ext (clamp_row (by decide) (by decide) _ hw)
  | ⟨1, _⟩ => rfl

/-! ## The stages, chained -/

/-- Column 0 of the span table, reshaped and broadcast back to [8, 5120, 1], is the table's word at (b, n, 0). -/
theorem col0_word (x1 : (⟨S8x5120x3, .i32⟩ : BufTy).Contents (Elt Ideal)) (b : Fin 8) (n : Fin 5120) (k : Fin 1) :
    val_main_v6 (F := Ideal) x1 (ix3 b n k) = x1 (ix3 b n (0 : Fin 3)) := by
  rw [val_main_v6_apply, val_main_v1_apply, val_main_v0_apply]
  congr 1
  funext a
  refine Fin.ext ?_
  match a with
  | ⟨0, _⟩ => show (b.val * 5120 + n.val) / 5120 = b.val; omega
  | ⟨1, _⟩ => show (b.val * 5120 + n.val) / 1 % 5120 = n.val; omega
  | ⟨2, _⟩ => rfl

/-- Column 1 likewise is the table's word at (b, n, 1). -/
theorem col1_word (x1 : (⟨S8x5120x3, .i32⟩ : BufTy).Contents (Elt Ideal)) (b : Fin 8) (n : Fin 5120) (k : Fin 1) :
    val_main_v8 (F := Ideal) x1 (ix3 b n k) = x1 (ix3 b n (1 : Fin 3)) := by
  rw [val_main_v8_apply, val_main_v3_apply, val_main_v2_apply]
  congr 1
  funext a
  refine Fin.ext ?_
  match a with
  | ⟨0, _⟩ => show (b.val * 5120 + n.val) / 5120 = b.val; omega
  | ⟨1, _⟩ => show (b.val * 5120 + n.val) / 1 % 5120 = n.val; omega
  | ⟨2, _⟩ => rfl

/-- Column 2, reshaped to [8, 5120], is the table's word at (b, n, 2). -/
theorem col2_word (x1 : (⟨S8x5120x3, .i32⟩ : BufTy).Contents (Elt Ideal)) (b : Fin 8) (n : Fin 5120) :
    val_main_v5 (F := Ideal) x1 (ix2 b n) = x1 (ix3 b n (2 : Fin 3)) := by
  rw [val_main_v5_apply, val_main_v4_apply]
  congr 1
  funext a
  refine Fin.ext ?_
  match a with
  | ⟨0, _⟩ => show (b.val * 5120 + n.val) / 5120 = b.val; omega
  | ⟨1, _⟩ => show (b.val * 5120 + n.val) / 1 % 5120 = n.val; omega
  | ⟨2, _⟩ => rfl

/-- The turned start word of this look-up at (b, n, k) is the span table's word: a word below 512 is not negative. -/
theorem call0_v4_word (x1 : (⟨S8x5120x3, .i32⟩ : BufTy).Contents (Elt Ideal)) (hr : InRange x1) (b : Fin 8) (n : Fin 5120) (k : Fin 1) :
    val_main_call0_v4 (F := Ideal) x1 (ix3 b n k) = x1 (ix3 b n (0 : Fin 3)) := by
  rw [val_main_call0_v4_apply, val_main_call0_v1_apply, val_main_call0_v3_apply, val_main_call0_v0_apply,
    val_main_call0_c_apply, col0_word]
  exact turn_keeps _ _ (by have := hr.start b n; omega)

/-- Its range bit is set at every index. -/
theorem call0_v10_one (x1 : (⟨S8x5120x3, .i32⟩ : BufTy).Contents (Elt Ideal)) (hr : InRange x1) (i : S8x5120x1.Idx) :
    val_main_call0_v10 (F := Ideal) x1 i = 1#1 := by
  obtain ⟨b, n, k, rfl⟩ : ∃ (b : Fin 8) (n : Fin 5120) (k : Fin 1), i = ix3 b n k := ⟨i 0, i 1, i 2, eq_ix3 i⟩
  rw [val_main_call0_v10_apply, val_main_call0_v6_apply, val_main_call0_v9_apply, val_main_call0_v5_apply,
    val_main_call0_c_2_apply, val_main_call0_v8_apply, val_main_call0_v7_apply, val_main_call0_c_1_apply,
    call0_v4_word x1 hr]
  exact in_table _ (hr.start b n)

/-- So is the bit folded over the size-one axis and broadcast along the features. -/
theorem call0_v13_one (x1 : (⟨S8x5120x3, .i32⟩ : BufTy).Contents (Elt Ideal)) (hr : InRange x1) (i : S8x5120x768.Idx) :
    val_main_call0_v13 (F := Ideal) x1 i = 1#1 := by
  rw [val_main_call0_v13_apply]
  unfold val_main_call0_v11
  exact reduce_andi_one _ _ _ _ (call0_v10_one x1 hr) (fun _ => rfl) _

/-- The turned start word of this look-up at (b, n, k) is the span table's word: a word below 512 is not negative. -/
theorem call1_v4_word (x1 : (⟨S8x5120x3, .i32⟩ : BufTy).Contents (Elt Ideal)) (hr : InRange x1) (b : Fin 8) (n : Fin 5120) (k : Fin 1) :
    val_main_call1_v4 (F := Ideal) x1 (ix3 b n k) = x1 (ix3 b n (1 : Fin 3)) := by
  rw [val_main_call1_v4_apply, val_main_call1_v1_apply, val_main_call1_v3_apply, val_main_call1_v0_apply,
    val_main_call1_c_apply, col1_word]
  exact turn_keeps _ _ (by have := hr.stop b n; omega)

/-- Its range bit is set at every index. -/
theorem call1_v10_one (x1 : (⟨S8x5120x3, .i32⟩ : BufTy).Contents (Elt Ideal)) (hr : InRange x1) (i : S8x5120x1.Idx) :
    val_main_call1_v10 (F := Ideal) x1 i = 1#1 := by
  obtain ⟨b, n, k, rfl⟩ : ∃ (b : Fin 8) (n : Fin 5120) (k : Fin 1), i = ix3 b n k := ⟨i 0, i 1, i 2, eq_ix3 i⟩
  rw [val_main_call1_v10_apply, val_main_call1_v6_apply, val_main_call1_v9_apply, val_main_call1_v5_apply,
    val_main_call1_c_2_apply, val_main_call1_v8_apply, val_main_call1_v7_apply, val_main_call1_c_1_apply,
    call1_v4_word x1 hr]
  exact in_table _ (hr.stop b n)

/-- So is the bit folded over the size-one axis and broadcast along the features. -/
theorem call1_v13_one (x1 : (⟨S8x5120x3, .i32⟩ : BufTy).Contents (Elt Ideal)) (hr : InRange x1) (i : S8x5120x768.Idx) :
    val_main_call1_v13 (F := Ideal) x1 i = 1#1 := by
  rw [val_main_call1_v13_apply]
  unfold val_main_call1_v11
  exact reduce_andi_one _ _ _ _ (call1_v10_one x1 hr) (fun _ => rfl) _

/-- The turned width word, broadcast to [8, 5120, 1], is the span table's word at (b, n, 2): a word below 11 is not negative. -/
theorem v15_word (x1 : (⟨S8x5120x3, .i32⟩ : BufTy).Contents (Elt Ideal)) (hr : InRange x1) (b : Fin 8) (n : Fin 5120) (k : Fin 1) :
    val_main_v15 (F := Ideal) x1 (ix3 b n k) = x1 (ix3 b n (2 : Fin 3)) := by
  rw [val_main_v15_apply]
  have hi : idx_main_v15 (ix3 b n k) = ix2 b n := by
    funext a
    match a with
    | ⟨0, _⟩ => rfl
    | ⟨1, _⟩ => rfl
  rw [hi, val_main_v14_apply, val_main_v11_apply, val_main_v13_apply, val_main_v10_apply, val_main_c_apply, col2_word]
  exact turn_keeps _ _ (by have := hr.width b n; omega)

/-- The start look-up at (b, n, d): the hidden state of batch b at the position column 0 names, feature d. -/
theorem start_rows (x0 : (⟨S8x512x768, .f32⟩ : BufTy).Contents (Elt Ideal)) (x1 : (⟨S8x5120x3, .i32⟩ : BufTy).Contents (Elt Ideal))
    (hr : InRange x1) (b : Fin 8) (n : Fin 5120) (d : Fin 768) :
    val_main_v7 (F := Ideal) x0 x1 (ix3 b n d) = x0 (ix3 b (rowOf 512 (by decide) (x1 (ix3 b n (0 : Fin 3)))) d) := by
  unfold val_main_v7 val_main_call0_v12
  exact hid_lookup x0 _ _ _ b n d _ (call0_v13_one x1 hr _) (call0_v4_word x1 hr b n 0) (hr.start b n)

/-- The end look-up at (b, n, d): the hidden state of batch b at the position column 1 names, feature d. -/
theorem stop_rows (x0 : (⟨S8x512x768, .f32⟩ : BufTy).Contents (Elt Ideal)) (x1 : (⟨S8x5120x3, .i32⟩ : BufTy).Contents (Elt Ideal))
    (hr : InRange x1) (b : Fin 8) (n : Fin 5120) (d : Fin 768) :
    val_main_v9 (F := Ideal) x0 x1 (ix3 b n d) = x0 (ix3 b (rowOf 512 (by decide) (x1 (ix3 b n (1 : Fin 3)))) d) := by
  unfold val_main_v9 val_main_call1_v12
  exact hid_lookup x0 _ _ _ b n d _ (call1_v13_one x1 hr _) (call1_v4_word x1 hr b n 0) (hr.stop b n)

/-- The width look-up at (b, n, d): the embedding of the width column 2 names, feature d. -/
theorem width_rows (x1 : (⟨S8x5120x3, .i32⟩ : BufTy).Contents (Elt Ideal)) (x2 : (⟨S11x150, .f32⟩ : BufTy).Contents (Elt Ideal))
    (hr : InRange x1) (b : Fin 8) (n : Fin 5120) (d : Fin 150) :
    val_main_v16 (F := Ideal) x1 x2 (ix3 b n d) = x2 (ix2 (rowOf 11 (by decide) (x1 (ix3 b n (2 : Fin 3)))) d) := by
  unfold val_main_v16
  exact wid_lookup x2 _ b n d _ (v15_word x1 hr b n 0) (hr.width b n)

end Cert.SpanRef

end
-- ==== Proof.RefValue.lean ====
/-
  The reference computes the specification: its last stage, read index by index, is `G` of the argument arrays.

  The three look-ups are joined along the feature axis into 1686 features; a product with the first weight matrix, the
  bias, a maximum with zero; a product with the second weight matrix, the bias. Each product at an index is a sum over
  its one contracted axis.
-/
import proofs.«421113_j73753178407290_1_alg».proof.Proof.RefGather

noncomputable section

namespace Cert.SpanRef

open Cert.ReferenceIdeal Cert.ReferenceIdeal.Gen Cert.ReferenceIdeal.ReadP Idealize.ShloMosaic Idealize.ShloMosaic.ValueIdx
open Cert.SpanSpec

/-- The joined feature array at (b, n, k): the start row for k below 768, the end row for k below 1536, the width
    row after that, each at k less the extents of the pieces before it. -/
private theorem cat_read (x0 : (⟨S8x512x768, .f32⟩ : BufTy).Contents (Elt Ideal)) (x1 : (⟨S8x5120x3, .i32⟩ : BufTy).Contents (Elt Ideal))
    (x2 : (⟨S11x150, .f32⟩ : BufTy).Contents (Elt Ideal)) (hr : InRange x1) (b : Fin 8) (n : Fin 5120) (k : Fin 1686) :
    val_main_v17 (F := Ideal) x0 x1 x2 (ix3 b n k) = featAt x0 x1 x2 b n k := by
  unfold val_main_v17 featAt featOf
  split
  · next h0 =>
    refine (concatenate_apply_piece (t := S8x5120x1686) 2 _ _ (ix3 b n k) 0 ?_ S8x5120x768
      (val_main_v7 (F := Ideal) x0 x1) ?_ rfl 0 ?_ (ix3 b n (⟨k.val, h0⟩ : Fin 768)) ?_ ?_).trans ?_
    · exact Nat.zero_lt_succ _
    · rfl
    · rfl
    · intro a; match a with
      | ⟨0, _⟩ => exact fun _ => rfl
      | ⟨1, _⟩ => exact fun _ => rfl
      | ⟨2, _⟩ => exact fun h => absurd rfl h
    · exact Nat.zero_add _
    · exact start_rows x0 x1 hr b n _
  · next h0 =>
    split
    · next h1 =>
      refine (concatenate_apply_piece (t := S8x5120x1686) 2 _ _ (ix3 b n k) 1 ?_ S8x5120x768
        (val_main_v9 (F := Ideal) x0 x1) ?_ rfl 768 ?_ (ix3 b n (⟨k.val - 768, by omega⟩ : Fin 768)) ?_ ?_).trans ?_
      · exact Nat.succ_lt_succ (Nat.zero_lt_succ _)
      · rfl
      · rfl
      · intro a; match a with
        | ⟨0, _⟩ => exact fun _ => rfl
        | ⟨1, _⟩ => exact fun _ => rfl
        | ⟨2, _⟩ => exact fun h => absurd rfl h
      · show 768 + (k.val - 768) = k.val
        omega
      · exact stop_rows x0 x1 hr b n _
    · next h1 =>
      have hk : k.val < 1686 := k.isLt
      refine (concatenate_apply_piece (t := S8x5120x1686) 2 _ _ (ix3 b n k) 2 ?_ S8x5120x150
        (val_main_v16 (F := Ideal) x1 x2) ?_ rfl 1536 ?_ (ix3 b n (⟨k.val - 1536, by omega⟩ : Fin 150)) ?_ ?_).trans ?_
      · exact Nat.succ_lt_succ (Nat.succ_lt_succ (Nat.zero_lt_succ _))
      · rfl
      · rfl
      · intro a; match a with
        | ⟨0, _⟩ => exact fun _ => rfl
        | ⟨1, _⟩ => exact fun _ => rfl
        | ⟨2, _⟩ => exact fun h => absurd rfl h
      · show 1536 + (k.val - 1536) = k.val
        omega
      · exact width_rows x1 x2 hr b n _

/-- The clamped hidden layer at (b, n, j): hidden unit j of the span's features. The left operand of the product is
    read along the feature axis at (b, n, k), the weight matrix at (k, j), the bias at j. -/
private theorem hidden_read (x0 : (⟨S8x512x768, .f32⟩ : BufTy).Contents (Elt Ideal)) (x1 : (⟨S8x5120x3, .i32⟩ : BufTy).Contents (Elt Ideal))
    (x2 : (⟨S11x150, .f32⟩ : BufTy).Contents (Elt Ideal)) (x3 : (⟨S1686x768, .f32⟩ : BufTy).Contents (Elt Ideal))
    (x4 : (⟨S768, .f32⟩ : BufTy).Contents (Elt Ideal)) (hr : InRange x1) (b : Fin 8) (n : Fin 5120) (j : Fin 768) :
    val_main_v22 (F := Ideal) x0 x1 x2 x3 x4 (ix3 b n j) = hiddenOf (featAt x0 x1 x2 b n) x3 x4 j := by
  have el : ∀ k : Fin 1686, lidx_main_v18 (ix3 b n j) k = ix3 b n k := fun k => funext fun a => by
    match a with
    | ⟨0, _⟩ => rfl
    | ⟨1, _⟩ => rfl
    | ⟨2, _⟩ => rfl
  have er : ∀ k : Fin 1686, ridx_main_v18 (ix3 b n j) k = ix2 k j := fun k => funext fun a => by
    match a with
    | ⟨0, _⟩ => rfl
    | ⟨1, _⟩ => rfl
  have eb : idx_main_v19 (idx_main_v20 (ix3 b n j)) = ix1 j := funext fun a => by
    match a with
    | ⟨0, _⟩ => rfl
  unfold hiddenOf
  rw [val_main_v22_apply, val_main_v21_apply, val_main_v18_apply, val_main_v20_apply, val_main_v19_apply,
    val_main_call2_v0_apply, val_main_call2_cst_apply, eb]
  simp only [Ideal.maximumf_def, Ideal.addf_def, Ideal.ofBits_def]
  refine congrArg (fun s => max (s + x4 (ix1 j)) zeroF) (Finset.sum_congr rfl fun k _ => ?_)
  rw [el, er, cat_read x0 x1 x2 hr b n k]

/-- The reference's result is the specification's function of the arguments, when the span words are in range. -/
theorem ref_eq_G (x0 : (⟨S8x512x768, .f32⟩ : BufTy).Contents (Elt Ideal)) (x1 : (⟨S8x5120x3, .i32⟩ : BufTy).Contents (Elt Ideal))
    (x2 : (⟨S11x150, .f32⟩ : BufTy).Contents (Elt Ideal)) (x3 : (⟨S1686x768, .f32⟩ : BufTy).Contents (Elt Ideal))
    (x4 : (⟨S768, .f32⟩ : BufTy).Contents (Elt Ideal)) (x5 : (⟨S768x57, .f32⟩ : BufTy).Contents (Elt Ideal))
    (x6 : (⟨S57, .f32⟩ : BufTy).Contents (Elt Ideal)) (hr : InRange x1) :
    val_main_v26 (F := Ideal) x0 x1 x2 x3 x4 x5 x6 = G x0 x1 x2 x3 x4 x5 x6 := by
  funext i
  obtain ⟨b, n, l, rfl⟩ : ∃ (b : Fin 8) (n : Fin 5120) (l : Fin 57), i = ix3 b n l := ⟨i 0, i 1, i 2, eq_ix3 i⟩
  have el : ∀ k : Fin 768, lidx_main_v23 (ix3 b n l) k = ix3 b n k := fun k => funext fun a => by
    match a with
    | ⟨0, _⟩ => rfl
    | ⟨1, _⟩ => rfl
    | ⟨2, _⟩ => rfl
  have er : ∀ k : Fin 768, ridx_main_v23 (ix3 b n l) k = ix2 k l := fun k => funext fun a => by
    match a with
    | ⟨0, _⟩ => rfl
    | ⟨1, _⟩ => rfl
  have eb : idx_main_v24 (idx_main_v25 (ix3 b n l)) = ix1 l := funext fun a => by
    match a with
    | ⟨0, _⟩ => rfl
  rw [G_apply]
  unfold logitOf
  rw [val_main_v26_apply, val_main_v23_apply, val_main_v25_apply, val_main_v24_apply, eb]
  simp only [Ideal.addf_def]
  refine congrArg (fun s => s + x6 (ix1 l)) (Finset.sum_congr rfl fun k _ => ?_)
  rw [el, er, hidden_read x0 x1 x2 x3 x4 hr b n k]

end Cert.SpanRef

end
-- ==== Proof.KernelPayload.lean ====
/-
  What the kernel's body stores, read at one index of its output block, in terms of the blocks it loads.

  The body compares each span word with the column numbers 0 … 511 (0 … 10 for the width) and so builds rows of zeros
  with a single one where the word stands; the product of such a row with a table is the table's row the word names
  (a sum in which every term but one is 0 · x = 0, and the remaining one is 1 · x = x). The three products are laid side
  by side, and the two dense layers follow as in the specification. Changes of float format are the identity on the
  extended reals.
-/
import proofs.«421113_j73753178407290_1_alg».proof.Proof.Gen.KernelIdeal.Skeleton
import proofs.«421113_j73753178407290_1_alg».proof.Proof.Spec
import Idealize.ShloMosaic.PureOps.Ideal.Laws
import Idealize.ShloMosaic.Lib.Pipeline.Value
import Idealize.ShloMosaic.Lib.ValueLayout

noncomputable section

namespace Cert.SpanKernel

open Cert.KernelIdeal Cert.KernelIdeal.Gen Idealize.ShloMosaic Idealize.ShloMosaic.ValueIdx
open Cert.SpanSpec
open scoped BigOperators

/-- The features of span `r` of a block: rows of the block's hidden states and of the width embedding. -/
def blockFeat (x0 : Vec Ideal S1x512x768 .bf16) (x1 : Vec Ideal S1x512x3 .i32) (x2 : Vec Ideal S11x150 .bf16) (r : Fin 512) :
    Fin 1686 → EReal :=
  featOf (fun d => x0 (ix3 (0 : Fin 1) (rowOf 512 (by decide) (x1 (ix3 (0 : Fin 1) r (0 : Fin 3)))) d))
    (fun d => x0 (ix3 (0 : Fin 1) (rowOf 512 (by decide) (x1 (ix3 (0 : Fin 1) r (1 : Fin 3)))) d))
    (fun d => x2 (ix2 (rowOf 11 (by decide) (x1 (ix3 (0 : Fin 1) r (2 : Fin 3)))) d))

/-- Two words compared for equality, the bit widened to 32 bits and read as a signed integer: 1 where they agree, else 0. -/
private theorem bit_toInt (a b : BitVec 32) :
    ((IntOp.cmpi .eq a b).setWidth 32).toInt = if a = b then 1 else 0 := by
  by_cases h : a = b
  · subst h
    rw [if_pos rfl]
    show ((BitVec.ofBool (a == a)).setWidth 32).toInt = 1
    rw [beq_self_eq_true]; decide
  · rw [if_neg h]
    show ((BitVec.ofBool (a == b)).setWidth 32).toInt = 0
    rw [beq_eq_false_iff_ne.mpr h]; decide

/-- The entry of a row of zeros and a one: the comparison of two words, widened, converted and narrowed, is 1 where they
    agree and 0 elsewhere. -/
private theorem onehot_apply {s : Shape} (a b : IVec s 32) (i : s.Idx) :
    (truncf .bf16 (sitofp .f32 (extui 32 (cmpi .eq a b) natLt_1_32) : FVec Ideal s .f32) bitsLt_bf16_f32 : FVec Ideal s .bf16) i
      = if a i = b i then (1 : EReal) else 0 := by
  show ((((IntOp.cmpi .eq (a i) (b i)).setWidth 32).toInt : ℝ) : EReal) = _
  rw [bit_toInt]
  by_cases h : a i = b i
  · rw [if_pos h, if_pos h]; norm_num
  · rw [if_neg h, if_neg h]; norm_num

/-- A word below the row count is the word of column k exactly when it names row k. -/
private theorem word_eq_iff {N : Nat} (hN : 0 < N) (hN' : N ≤ 2 ^ 32) (w : BitVec 32) (hw : w.toNat < N) (k : Fin N) :
    w = BitVec.ofNat 32 k.val ↔ rowOf N hN w = k := by
  have hk : k.val % 2 ^ 32 = k.val := Nat.mod_eq_of_lt (lt_of_lt_of_le k.isLt hN')
  constructor
  · intro h
    apply Fin.ext
    rw [rowOf_val_of_lt hN w hw, h, BitVec.toNat_ofNat, hk]
  · intro h
    apply BitVec.eq_of_toNat_eq
    rw [BitVec.toNat_ofNat, hk, ← h, rowOf_val_of_lt hN w hw]

/-- Column o of the span block, as a vector, stood up as a column and spread along a row of any length: at (p, s) it is the
    span word (0, p, k) with k = o. -/
private theorem spanCol_apply {N : Nat} (o : Nat) (x1 : Vec Ideal S1x512x3 .i32) (hsl : S512x3.Slices ![0, o] S512x1)
    (hb : S512x1.Broadcasts ⟨2, ![512, N]⟩) (p : Fin 512) (s : Fin N) (k : Fin 3) (hk : k.val = o) :
    broadcastTo ⟨2, ![512, N]⟩
        (shapeCast S512x1
          (shapeCast S512 (extractStridedSlice S512x1 ![0, o] (shapeCast S512x3 x1 shapeCasts_S1x512x3_S512x3 : IVec S512x3 32) hsl)
            shapeCasts_S512x1_S512)
          shapeCasts_S512_S512x1) hb (ix2 p s)
      = x1 (ix3 (0 : Fin 1) p k) := by
  rw [shapeCast_shapeCast]
  refine (broadcastTo_apply _ hb (ix2 p s) (ix2 p (0 : Fin 1)) fun ax => ?_).trans ?_
  · match ax with
    | ⟨0, _⟩ => rfl
    | ⟨1, _⟩ => rfl
  · refine (slice2_axis1_apply o _ hsl p (0 : Fin 1) k (by rw [hk]; rfl)).trans ?_
    exact shapeCast_1ab_ab_apply x1 shapeCasts_S1x512x3_S512x3 p k

/-- The column numbers along a row: at (p, k) the word of k. -/
private theorem colIota_apply {N : Nat} (h : (⟨2, ![512, N]⟩ : Shape).Iotas .tc 32 [1]) (p : Fin 512) (k : Fin N) :
    iota .tc ⟨2, ![512, N]⟩ 32 [1] h (ix2 p k) = BitVec.ofNat 32 k.val :=
  iota_single_apply .tc _ 32 1 h (ix2 p k)

/-- The hidden-state block without its unit axis: at (p, q) the block at (0, p, q). -/
private theorem hidBlock_apply (x0 : Vec Ideal S1x512x768 .bf16) (p : Fin 512) (q : Fin 768) :
    (shapeCast S512x768 x0 shapeCasts_S1x512x768_S512x768 : FVec Ideal S512x768 .bf16) (ix2 p q) = x0 (ix3 (0 : Fin 1) p q) :=
  shapeCast_1ab_ab_apply x0 shapeCasts_S1x512x768_S512x768 p q

/-- The first bias spread down the 512 rows: at (p, j) it is the bias at j. -/
private theorem pay3_apply (x4 : Vec Ideal S768 .f32) (p : Fin 512) (j : Fin 768) :
    k0_pay3 (F := Ideal) x4 (ix2 p j) = x4 (ix1 j) := by
  unfold k0_pay3
  refine (broadcastTo_1b_ab_apply _ broadcasts_S1x768_S512x768 p j).trans ?_
  exact shapeCast_a_1a_apply x4 shapeCasts_S768_S1x768 (0 : Fin 1) j

/-- A product of an [A, K] by a [K, B] matrix into the zero matrix, contracting the one shared axis: at (p, q) it is the sum
    over k of left (p, k) times right (k, q). The four hypotheses say which coordinates the dimension numbers read. -/
private theorem matmul_sum {A K B : Nat} {φ₁ φ₂ : FTy}
    (D : DotDims ⟨2, ![A, K]⟩ ⟨2, ![K, B]⟩ ⟨2, ![A, B]⟩) (hr : D.contr.rank = 1) (hs : D.contr.size ⟨0, by omega⟩ = K)
    (hl0 : ∀ (j : (⟨2, ![A, B]⟩ : Shape).Idx) (c : D.contr.Idx), (D.lhsIdx j c 0).val = (j 0).val)
    (hl1 : ∀ (j : (⟨2, ![A, B]⟩ : Shape).Idx) (c : D.contr.Idx), (D.lhsIdx j c 1).val = (c ⟨0, by omega⟩).val)
    (hr0 : ∀ (j : (⟨2, ![A, B]⟩ : Shape).Idx) (c : D.contr.Idx), (D.rhsIdx j c 0).val = (c ⟨0, by omega⟩).val)
    (hr1 : ∀ (j : (⟨2, ![A, B]⟩ : Shape).Idx) (c : D.contr.Idx), (D.rhsIdx j c 1).val = (j 1).val)
    (lhs : FVec Ideal ⟨2, ![A, K]⟩ φ₁) (rhs : FVec Ideal ⟨2, ![K, B]⟩ φ₂) (p : Fin A) (q : Fin B) :
    matmul (F := Ideal) D none lhs rhs (constant (F := Ideal) ⟨2, ![A, B]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-! The coordinates the four products' dimension numbers read: rows of the left operand and columns of the right one from the
    result's index, the shared axis from the contraction index. -/

private theorem lhs_sel_0 (i : S512x768.Idx) (c : dot_S512x512_S512x768_S512x768_1_0_0_1_n_n.contr.Idx) :
    (dot_S512x512_S512x768_S512x768_1_0_0_1_n_n.lhsIdx i c 0).val = (i 0).val := by
  unfold DotDims.lhsIdx
  rw [dif_neg (show ¬(0 : Fin S512x512.rank) ∈ dot_S512x512_S512x768_S512x768_1_0_0_1_n_n.lhsBatch by decide), dif_pos (show (0 : Fin S512x512.rank) ∈ dot_S512x512_S512x768_S512x768_1_0_0_1_n_n.lhsNonContracting by decide)]
  rfl
private theorem lhs_sel_1 (i : S512x768.Idx) (c : dot_S512x512_S512x768_S512x768_1_0_0_1_n_n.contr.Idx) :
    (dot_S512x512_S512x768_S512x768_1_0_0_1_n_n.lhsIdx i c 1).val = (c ⟨0, by decide⟩).val :=
  dot_S512x512_S512x768_S512x768_1_0_0_1_n_n.lhsIdx_val_of_single rfl i c
private theorem rhs_sel_0 (i : S512x768.Idx) (c : dot_S512x512_S512x768_S512x768_1_0_0_1_n_n.contr.Idx) :
    (dot_S512x512_S512x768_S512x768_1_0_0_1_n_n.rhsIdx i c 0).val = (c ⟨0, by decide⟩).val :=
  dot_S512x512_S512x768_S512x768_1_0_0_1_n_n.rhsIdx_val_of_single rfl i c
private theorem rhs_sel_1 (i : S512x768.Idx) (c : dot_S512x512_S512x768_S512x768_1_0_0_1_n_n.contr.Idx) :
    (dot_S512x512_S512x768_S512x768_1_0_0_1_n_n.rhsIdx i c 1).val = (i 1).val := by
  unfold DotDims.rhsIdx
  rw [dif_neg (show ¬(1 : Fin S512x768.rank) ∈ dot_S512x512_S512x768_S512x768_1_0_0_1_n_n.rhsBatch by decide), dif_pos (show (1 : Fin S512x768.rank) ∈ dot_S512x512_S512x768_S512x768_1_0_0_1_n_n.rhsNonContracting by decide)]
  rfl

/-- The product of a [512, 512] matrix with the hidden-state block, as a sum over the 512 positions. -/
private theorem matmul_sel (lhs : FVec Ideal S512x512 .bf16) (rhs : FVec Ideal S512x768 .bf16) (p : Fin 512) (q : Fin 768) :
    matmul (F := Ideal) dot_S512x512_S512x768_S512x768_1_0_0_1_n_n none lhs rhs (constant (F := Ideal) S512x768 .f32 0x00000000#32) (ix2 p q)
      = ∑ k : Fin 512, lhs (ix2 p k) * rhs (ix2 k q) :=
  matmul_sum dot_S512x512_S512x768_S512x768_1_0_0_1_n_n rfl rfl lhs_sel_0 lhs_sel_1 rhs_sel_0 rhs_sel_1 lhs rhs p q

private theorem lhs_wid_0 (i : S512x150.Idx) (c : dot_S512x11_S11x150_S512x150_1_0_0_1_n_n.contr.Idx) :
    (dot_S512x11_S11x150_S512x150_1_0_0_1_n_n.lhsIdx i c 0).val = (i 0).val := by
  unfold DotDims.lhsIdx
  rw [dif_neg (show ¬(0 : Fin S512x11.rank) ∈ dot_S512x11_S11x150_S512x150_1_0_0_1_n_n.lhsBatch by decide), dif_pos (show (0 : Fin S512x11.rank) ∈ dot_S512x11_S11x150_S512x150_1_0_0_1_n_n.lhsNonContracting by decide)]
  rfl
private theorem lhs_wid_1 (i : S512x150.Idx) (c : dot_S512x11_S11x150_S512x150_1_0_0_1_n_n.contr.Idx) :
    (dot_S512x11_S11x150_S512x150_1_0_0_1_n_n.lhsIdx i c 1).val = (c ⟨0, by decide⟩).val :=
  dot_S512x11_S11x150_S512x150_1_0_0_1_n_n.lhsIdx_val_of_single rfl i c
private theorem rhs_wid_0 (i : S512x150.Idx) (c : dot_S512x11_S11x150_S512x150_1_0_0_1_n_n.contr.Idx) :
    (dot_S512x11_S11x150_S512x150_1_0_0_1_n_n.rhsIdx i c 0).val = (c ⟨0, by decide⟩).val :=
  dot_S512x11_S11x150_S512x150_1_0_0_1_n_n.rhsIdx_val_of_single rfl i c
private theorem rhs_wid_1 (i : S512x150.Idx) (c : dot_S512x11_S11x150_S512x150_1_0_0_1_n_n.contr.Idx) :
    (dot_S512x11_S11x150_S512x150_1_0_0_1_n_n.rhsIdx i c 1).val = (i 1).val := by
  unfold DotDims.rhsIdx
  rw [dif_neg (show ¬(1 : Fin S11x150.rank) ∈ dot_S512x11_S11x150_S512x150_1_0_0_1_n_n.rhsBatch by decide), dif_pos (show (1 : Fin S11x150.rank) ∈ dot_S512x11_S11x150_S512x150_1_0_0_1_n_n.rhsNonContracting by decide)]
  rfl

/-- The product of a [512, 11] matrix with the width embedding, as a sum over the 11 widths. -/
private theorem matmul_wid (lhs : FVec Ideal S512x11 .bf16) (rhs : FVec Ideal S11x150 .bf16) (p : Fin 512) (q : Fin 150) :
    matmul (F := Ideal) dot_S512x11_S11x150_S512x150_1_0_0_1_n_n none lhs rhs (constant (F := Ideal) S512x150 .f32 0x00000000#32) (ix2 p q)
      = ∑ k : Fin 11, lhs (ix2 p k) * rhs (ix2 k q) :=
  matmul_sum dot_S512x11_S11x150_S512x150_1_0_0_1_n_n rfl rfl lhs_wid_0 lhs_wid_1 rhs_wid_0 rhs_wid_1 lhs rhs p q

private theorem lhs_feat_0 (i : S512x768.Idx) (c : dot_S512x1686_S1686x768_S512x768_1_0_0_1_n_n.contr.Idx) :
    (dot_S512x1686_S1686x768_S512x768_1_0_0_1_n_n.lhsIdx i c 0).val = (i 0).val := by
  unfold DotDims.lhsIdx
  rw [dif_neg (show ¬(0 : Fin S512x1686.rank) ∈ dot_S512x1686_S1686x768_S512x768_1_0_0_1_n_n.lhsBatch by decide), dif_pos (show (0 : Fin S512x1686.rank) ∈ dot_S512x1686_S1686x768_S512x768_1_0_0_1_n_n.lhsNonContracting by decide)]
  rfl
private theorem lhs_feat_1 (i : S512x768.Idx) (c : dot_S512x1686_S1686x768_S512x768_1_0_0_1_n_n.contr.Idx) :
    (dot_S512x1686_S1686x768_S512x768_1_0_0_1_n_n.lhsIdx i c 1).val = (c ⟨0, by decide⟩).val :=
  dot_S512x1686_S1686x768_S512x768_1_0_0_1_n_n.lhsIdx_val_of_single rfl i c
private theorem rhs_feat_0 (i : S512x768.Idx) (c : dot_S512x1686_S1686x768_S512x768_1_0_0_1_n_n.contr.Idx) :
    (dot_S512x1686_S1686x768_S512x768_1_0_0_1_n_n.rhsIdx i c 0).val = (c ⟨0, by decide⟩).val :=
  dot_S512x1686_S1686x768_S512x768_1_0_0_1_n_n.rhsIdx_val_of_single rfl i c
private theorem rhs_feat_1 (i : S512x768.Idx) (c : dot_S512x1686_S1686x768_S512x768_1_0_0_1_n_n.contr.Idx) :
    (dot_S512x1686_S1686x768_S512x768_1_0_0_1_n_n.rhsIdx i c 1).val = (i 1).val := by
  unfold DotDims.rhsIdx
  rw [dif_neg (show ¬(1 : Fin S1686x768.rank) ∈ dot_S512x1686_S1686x768_S512x768_1_0_0_1_n_n.rhsBatch by decide), dif_pos (show (1 : Fin S1686x768.rank) ∈ dot_S512x1686_S1686x768_S512x768_1_0_0_1_n_n.rhsNonContracting by decide)]
  rfl

/-- The first dense layer's product, as a sum over the 1686 features. -/
private theorem matmul_feat (lhs : FVec Ideal S512x1686 .bf16) (rhs : FVec Ideal S1686x768 .bf16) (p : Fin 512) (q : Fin 768) :
    matmul (F := Ideal) dot_S512x1686_S1686x768_S512x768_1_0_0_1_n_n none lhs rhs (constant (F := Ideal) S512x768 .f32 0x00000000#32) (ix2 p q)
      = ∑ k : Fin 1686, lhs (ix2 p k) * rhs (ix2 k q) :=
  matmul_sum dot_S512x1686_S1686x768_S512x768_1_0_0_1_n_n rfl rfl lhs_feat_0 lhs_feat_1 rhs_feat_0 rhs_feat_1 lhs rhs p q

private theorem lhs_out_0 (i : S512x57.Idx) (c : dot_S512x768_S768x57_S512x57_1_0_0_1_n_n.contr.Idx) :
    (dot_S512x768_S768x57_S512x57_1_0_0_1_n_n.lhsIdx i c 0).val = (i 0).val := by
  unfold DotDims.lhsIdx
  rw [dif_neg (show ¬(0 : Fin S512x768.rank) ∈ dot_S512x768_S768x57_S512x57_1_0_0_1_n_n.lhsBatch by decide), dif_pos (show (0 : Fin S512x768.rank) ∈ dot_S512x768_S768x57_S512x57_1_0_0_1_n_n.lhsNonContracting by decide)]
  rfl
private theorem lhs_out_1 (i : S512x57.Idx) (c : dot_S512x768_S768x57_S512x57_1_0_0_1_n_n.contr.Idx) :
    (dot_S512x768_S768x57_S512x57_1_0_0_1_n_n.lhsIdx i c 1).val = (c ⟨0, by decide⟩).val :=
  dot_S512x768_S768x57_S512x57_1_0_0_1_n_n.lhsIdx_val_of_single rfl i c
private theorem rhs_out_0 (i : S512x57.Idx) (c : dot_S512x768_S768x57_S512x57_1_0_0_1_n_n.contr.Idx) :
    (dot_S512x768_S768x57_S512x57_1_0_0_1_n_n.rhsIdx i c 0).val = (c ⟨0, by decide⟩).val :=
  dot_S512x768_S768x57_S512x57_1_0_0_1_n_n.rhsIdx_val_of_single rfl i c
private theorem rhs_out_1 (i : S512x57.Idx) (c : dot_S512x768_S768x57_S512x57_1_0_0_1_n_n.contr.Idx) :
    (dot_S512x768_S768x57_S512x57_1_0_0_1_n_n.rhsIdx i c 1).val = (i 1).val := by
  unfold DotDims.rhsIdx
  rw [dif_neg (show ¬(1 : Fin S768x57.rank) ∈ dot_S512x768_S768x57_S512x57_1_0_0_1_n_n.rhsBatch by decide), dif_pos (show (1 : Fin S768x57.rank) ∈ dot_S512x768_S768x57_S512x57_1_0_0_1_n_n.rhsNonContracting by decide)]
  rfl

/-- The second dense layer's product, as a sum over the 768 hidden units. -/
private theorem matmul_out (lhs : FVec Ideal S512x768 .bf16) (rhs : FVec Ideal S768x57 .bf16) (p : Fin 512) (q : Fin 57) :
    matmul (F := Ideal) dot_S512x768_S768x57_S512x57_1_0_0_1_n_n none lhs rhs (constant (F := Ideal) S512x57 .f32 0x00000000#32) (ix2 p q)
      = ∑ k : Fin 768, lhs (ix2 p k) * rhs (ix2 k q) :=
  matmul_sum dot_S512x768_S768x57_S512x57_1_0_0_1_n_n rfl rfl lhs_out_0 lhs_out_1 rhs_out_0 rhs_out_1 lhs rhs p q

/-- A row of zeros with a single one, against a column: every term but one is 0 · x = 0 and the remaining one is 1 · x = x, so
    the sum is the column's entry at the row the word names. No finiteness is asked of the column. -/
private theorem onehot_sum {N : Nat} (hN : 0 < N) (hN' : N ≤ 2 ^ 32) (w : BitVec 32) (hw : w.toNat < N) (T : Fin N → EReal) :
    ∑ k : Fin N, (if w = BitVec.ofNat 32 k.val then (1 : EReal) else 0) * T k = T (rowOf N hN w) := by
  rw [Finset.sum_eq_single (rowOf N hN w)]
  · rw [if_pos ((word_eq_iff hN hN' w hw _).mpr rfl), one_mul]
  · intro k _ hk
    rw [if_neg (fun h => hk ((word_eq_iff hN hN' w hw k).mp h).symm), zero_mul]
  · intro h; exact absurd (Finset.mem_univ _) h

/-- The product that picks hidden-state rows: the rows of zeros and a one built from span column o, against the hidden-state
    block, give at (p, q) the block's row that span p's word names, at q. -/
private theorem selHid_apply (o : Nat) (x0 : Vec Ideal S1x512x768 .bf16) (x1 : Vec Ideal S1x512x3 .i32)
    (hsl : S512x3.Slices ![0, o] S512x1) (k : Fin 3) (hk : k.val = o)
    (hlt : ∀ r : Fin 512, (x1 (ix3 (0 : Fin 1) r k)).toNat < 512) (p : Fin 512) (q : Fin 768) :
    matmul (F := Ideal) dot_S512x512_S512x768_S512x768_1_0_0_1_n_n none
        (truncf .bf16 (sitofp .f32 (extui 32 (cmpi .eq
          (broadcastTo S512x512
            (shapeCast S512x1
              (shapeCast S512 (extractStridedSlice S512x1 ![0, o] (shapeCast S512x3 x1 shapeCasts_S1x512x3_S512x3 : IVec S512x3 32) hsl)
                shapeCasts_S512x1_S512)
              shapeCasts_S512_S512x1) broadcasts_S512x1_S512x512)
          (iota .tc S512x512 32 [1] iota_S512x512_d1_w32)) natLt_1_32) : FVec Ideal S512x512 .f32) bitsLt_bf16_f32)
        (shapeCast S512x768 x0 shapeCasts_S1x512x768_S512x768 : FVec Ideal S512x768 .bf16)
        (constant (F := Ideal) S512x768 .f32 0x00000000#32) (ix2 p q)
      = x0 (ix3 (0 : Fin 1) (rowOf 512 (by decide) (x1 (ix3 (0 : Fin 1) p k))) q) := by
  refine (matmul_sel _ _ p q).trans ?_
  refine Eq.trans (Finset.sum_congr rfl fun c _ => ?_)
    (onehot_sum (N := 512) (by decide) (by decide) (x1 (ix3 (0 : Fin 1) p k)) (hlt p) fun c => x0 (ix3 (0 : Fin 1) c q))
  refine congrArg₂ (· * ·) ?_ (hidBlock_apply x0 c q)
  refine (onehot_apply _ _ (ix2 p c)).trans ?_
  rw [spanCol_apply o x1 hsl broadcasts_S512x1_S512x512 p c k hk, colIota_apply iota_S512x512_d1_w32 p c]

/-- The product that picks the width's embedding: the rows of zeros and a one built from span column 2, against the width
    embedding, give at (p, q) the embedding's row that span p's width names, at q. -/
private theorem selWid_apply (x1 : Vec Ideal S1x512x3 .i32) (x2 : Vec Ideal S11x150 .bf16)
    (hlt : ∀ r : Fin 512, (x1 (ix3 (0 : Fin 1) r (2 : Fin 3))).toNat < 11) (p : Fin 512) (q : Fin 150) :
    matmul (F := Ideal) dot_S512x11_S11x150_S512x150_1_0_0_1_n_n none
        (truncf .bf16 (sitofp .f32 (extui 32 (cmpi .eq
          (broadcastTo S512x11
            (shapeCast S512x1
              (shapeCast S512 (extractStridedSlice S512x1 ![0, 2] (shapeCast S512x3 x1 shapeCasts_S1x512x3_S512x3 : IVec S512x3 32) slices_S512x3_o0_2_S512x1)
                shapeCasts_S512x1_S512)
              shapeCasts_S512_S512x1) broadcasts_S512x1_S512x11)
          (iota .tc S512x11 32 [1] iota_S512x11_d1_w32)) natLt_1_32) : FVec Ideal S512x11 .f32) bitsLt_bf16_f32)
        (shapeCast S11x150 x2 shapeCasts_S11x150_S11x150 : FVec Ideal S11x150 .bf16)
        (constant (F := Ideal) S512x150 .f32 0x00000000#32) (ix2 p q)
      = x2 (ix2 (rowOf 11 (by decide) (x1 (ix3 (0 : Fin 1) p (2 : Fin 3)))) q) := by
  refine (matmul_wid _ _ p q).trans ?_
  refine Eq.trans (Finset.sum_congr rfl fun c _ => ?_)
    (onehot_sum (N := 11) (by decide) (by decide) (x1 (ix3 (0 : Fin 1) p (2 : Fin 3))) (hlt p) fun c => x2 (ix2 c q))
  refine congrArg₂ (· * ·) ?_ (congrFun (shapeCast_self x2 shapeCasts_S11x150_S11x150) (ix2 c q))
  refine (onehot_apply _ _ (ix2 p c)).trans ?_
  rw [spanCol_apply 2 x1 slices_S512x3_o0_2_S512x1 broadcasts_S512x1_S512x11 p c (2 : Fin 3) rfl, colIota_apply iota_S512x11_d1_w32 p c]

/-- Three blocks laid side by side along the columns: at (p, d) the entry is the first block's at d below 768, the second's at
    d - 768 below 1536, the third's at d - 1536 from there on: the features of the three rows. -/
private theorem concat_apply (a b : FVec Ideal S512x768 .f32) (c : FVec Ideal S512x150 .f32) (p : Fin 512) (d : Fin 1686) :
    concatenate S512x1686 1 [⟨S512x768, a⟩, ⟨S512x768, b⟩, ⟨S512x150, c⟩] concatenates_S512x768_S512x768_S512x150_S512x1686_d1 (ix2 p d)
      = featOf (fun e => a (ix2 p e)) (fun e => b (ix2 p e)) (fun e => c (ix2 p e)) d := by
  unfold featOf
  by_cases h0 : d.val < 768
  · rw [dif_pos h0]
    exact concatenate_apply_piece 1 _ _ (ix2 p d) 0 (by simp) S512x768 a rfl rfl 0 rfl (ix2 p ⟨d.val, h0⟩)
      (fun ax hax => by
        match ax with
        | ⟨0, _⟩ => rfl
        | ⟨1, _⟩ => exact absurd rfl hax)
      (Nat.zero_add _)
  · rw [dif_neg h0]
    by_cases h1 : d.val < 1536
    · rw [dif_pos h1]
      exact concatenate_apply_piece 1 _ _ (ix2 p d) 1 (by simp) S512x768 b rfl rfl 768 rfl (ix2 p ⟨d.val - 768, by omega⟩)
        (fun ax hax => by
          match ax with
          | ⟨0, _⟩ => rfl
          | ⟨1, _⟩ => exact absurd rfl hax)
        (by show 768 + (d.val - 768) = d.val; omega)
    · rw [dif_neg h1]
      exact concatenate_apply_piece 1 _ _ (ix2 p d) 2 (by simp) S512x150 c rfl rfl 1536 rfl (ix2 p ⟨d.val - 1536, by have := d.isLt; omega⟩)
        (fun ax hax => by
          match ax with
          | ⟨0, _⟩ => rfl
          | ⟨1, _⟩ => exact absurd rfl hax)
        (by show 1536 + (d.val - 1536) = d.val; omega)

/-- The first dense layer before its bias: at (p, j) the features of span p against column j of the first weight matrix. -/
private theorem pay2_apply (x0 : Vec Ideal S1x512x768 .bf16) (x1 : Vec Ideal S1x512x3 .i32) (x2 : Vec Ideal S11x150 .bf16)
    (x3 : Vec Ideal S1686x768 .bf16)
    (hs : ∀ r : Fin 512, (x1 (ix3 (0 : Fin 1) r (0 : Fin 3))).toNat < 512)
    (he : ∀ r : Fin 512, (x1 (ix3 (0 : Fin 1) r (1 : Fin 3))).toNat < 512)
    (hw : ∀ r : Fin 512, (x1 (ix3 (0 : Fin 1) r (2 : Fin 3))).toNat < 11) (p : Fin 512) (j : Fin 768) :
    k0_pay2 (F := Ideal) x0 x1 x2 x3 (ix2 p j) = ∑ d : Fin 1686, blockFeat x0 x1 x2 p d * x3 (ix2 d j) := by
  unfold k0_pay2
  refine (matmul_feat _ _ p j).trans ?_
  refine Finset.sum_congr rfl fun d _ => ?_
  refine congrArg₂ (· * ·) ?_ (congrFun (shapeCast_self x3 shapeCasts_S1686x768_S1686x768) (ix2 d j))
  refine (truncf_apply _ bitsLt_bf16_f32 (ix2 p d)).trans ?_
  refine (concat_apply _ _ _ p d).trans ?_
  unfold blockFeat
  congr 1
  · funext e; exact selHid_apply 0 x0 x1 slices_S512x3_o0_0_S512x1 (0 : Fin 3) rfl hs p e
  · funext e; exact selHid_apply 1 x0 x1 slices_S512x3_o0_1_S512x1 (1 : Fin 3) rfl he p e
  · funext e; exact selWid_apply x1 x2 hw p e

/-- The stored value at (0, r, l): the specification's output unit l over the block's span r, when the block's span words
    are in range. -/
theorem payload_apply (x0 : Vec Ideal S1x512x768 .bf16) (x1 : Vec Ideal S1x512x3 .i32) (x2 : Vec Ideal S11x150 .bf16)
    (x3 : Vec Ideal S1686x768 .bf16) (x4 : Vec Ideal S768 .f32) (x5 : Vec Ideal S768x57 .bf16) (x6 : Vec Ideal S57 .f32)
    (hs : ∀ r : Fin 512, (x1 (ix3 (0 : Fin 1) r (0 : Fin 3))).toNat < 512)
    (he : ∀ r : Fin 512, (x1 (ix3 (0 : Fin 1) r (1 : Fin 3))).toNat < 512)
    (hw : ∀ r : Fin 512, (x1 (ix3 (0 : Fin 1) r (2 : Fin 3))).toNat < 11) (r : Fin 512) (l : Fin 57) :
    k0_pay1 (F := Ideal) (k0_pay2 (F := Ideal) x0 x1 x2 x3) (k0_pay3 (F := Ideal) x4) x5 x6 (ix3 (0 : Fin 1) r l)
      = logitOf (blockFeat x0 x1 x2 r) x3 x4 x5 x6 l := by
  unfold k0_pay1
  refine (shapeCast_ab_1ab_apply _ shapeCasts_S512x57_S1x512x57 (0 : Fin 1) r l).trans ?_
  refine (addf_apply _ _ (ix2 r l)).trans ?_
  unfold logitOf
  refine congrArg₂ (· + ·) ?_ ?_
  · refine (matmul_out _ _ r l).trans ?_
    refine Finset.sum_congr rfl fun j _ => ?_
    refine congrArg₂ (· * ·) ?_ (congrFun (shapeCast_self x5 shapeCasts_S768x57_S768x57) (ix2 j l))
    unfold hiddenOf
    show max (k0_pay2 (F := Ideal) x0 x1 x2 x3 (ix2 r j) + k0_pay3 (F := Ideal) x4 (ix2 r j)) (Ideal.ofBits .f32 0x00000000#32) = _
    rw [pay2_apply x0 x1 x2 x3 hs he hw r j, pay3_apply x4 r j]
  · refine (broadcastTo_1b_ab_apply _ broadcasts_S1x57_S512x57 r l).trans ?_
    exact shapeCast_a_1a_apply x6 shapeCasts_S57_S1x57 (0 : Fin 1) l

end Cert.SpanKernel

end
-- ==== Proof.KernelBlocks.lean ====
/-
  From blocks to the array: after the kernel's run the result array is the specification's function of the arguments.

  Grid point (b, k) writes the block of spans 512·k … 512·k + 511 of batch b. It reads the hidden states of batch b, the
  span rows 512·k … 512·k + 511 of batch b, and the four parameter arrays whole. Three of the arrays the kernel reads are
  format changes of arguments, which are the identity on the extended reals. The 80 blocks tile the result array.
-/
import proofs.«421113_j73753178407290_1_alg».proof.Proof.Gen.KernelIdeal.Value
import proofs.«421113_j73753178407290_1_alg».proof.Proof.KernelPayload

noncomputable section

namespace Cert.SpanKernel

open Cert.KernelIdeal Cert.KernelIdeal.Gen Idealize.ShloMosaic Idealize.ShloMosaic.TcCoe Idealize.SL.Sem Idealize.ShloMosaic.ValueIdx
open Idealize.ShloMosaic.Pipeline (Dat)
open Cert.SpanSpec

variable (m : (ℓ : Loc nD τ sig) → Buf (Elt Ideal) ℓ) (ρ : Dev nD → PrngReg)

/-! ## The arrays the kernel reads that are format changes of arguments -/

/-- The hidden states the kernel reads are the argument's: narrowing the float format is the identity on the extended reals. -/
private theorem hidden_as_read (c : Dev nD) : (V m c main_v0 : S8x512x768.Idx → EReal) = m ((c : Thread nD τ).loc main_arg0) := by
  have e : @Eq (FVec Ideal S8x512x768 .bf16) (V m c main_v0)
      (truncf (F := Ideal) .bf16 (m ((c : Thread nD τ).loc main_arg0) : FVec Ideal S8x512x768 .f32) bitsLt_bf16_f32) := by
    dsimp only [Gen.V, Gen.hostOps0]; after_results
  exact e

/-- Likewise the width embedding, -/
private theorem widthEmb_as_read (c : Dev nD) : (V m c main_v1 : S11x150.Idx → EReal) = m ((c : Thread nD τ).loc main_arg2) := by
  have e : @Eq (FVec Ideal S11x150 .bf16) (V m c main_v1)
      (truncf (F := Ideal) .bf16 (m ((c : Thread nD τ).loc main_arg2) : FVec Ideal S11x150 .f32) bitsLt_bf16_f32) := by
    dsimp only [Gen.V, Gen.hostOps0]; after_results
  exact e

/-- the first weight matrix, -/
private theorem weight1_as_read (c : Dev nD) : (V m c main_v2 : S1686x768.Idx → EReal) = m ((c : Thread nD τ).loc main_arg3) := by
  have e : @Eq (FVec Ideal S1686x768 .bf16) (V m c main_v2)
      (truncf (F := Ideal) .bf16 (m ((c : Thread nD τ).loc main_arg3) : FVec Ideal S1686x768 .f32) bitsLt_bf16_f32) := by
    dsimp only [Gen.V, Gen.hostOps0]; after_results
  exact e

/-- and the second weight matrix. -/
private theorem weight2_as_read (c : Dev nD) : (V m c main_v3 : S768x57.Idx → EReal) = m ((c : Thread nD τ).loc main_arg5) := by
  have e : @Eq (FVec Ideal S768x57 .bf16) (V m c main_v3)
      (truncf (F := Ideal) .bf16 (m ((c : Thread nD τ).loc main_arg5) : FVec Ideal S768x57 .f32) bitsLt_bf16_f32) := by
    dsimp only [Gen.V, Gen.hostOps0]; after_results
  exact e

/-! ## The index maps over the grid -/

/-- The kernel's index maps at each of the 80 grid points: the hidden-state window follows the result's batch axis, the
    span window follows the result's batch and row-block axes, the parameter windows stay at block 0, and the result's block
    indices stay in their ranges. -/
private theorem blockIndex_facts : ∀ t : Fin cfg0.N,
    win0_0.index t (0 : Fin 3) = win0_7.index t (0 : Fin 3)
    ∧ win0_0.index t (1 : Fin 3) = 0
    ∧ win0_0.index t (2 : Fin 3) = 0
    ∧ win0_1.index t (0 : Fin 3) = win0_7.index t (0 : Fin 3)
    ∧ win0_1.index t (1 : Fin 3) = win0_7.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) ≤ 7 ∧ win0_7.index t (1 : Fin 3) ≤ 9 ∧ win0_7.index t (2 : Fin 3) = 0 :=
  (by decide +kernel : ∀ t : Fin grid0.N, _)

/-- Every (batch, row block) pair is some grid point's. -/
private theorem point_of_block : ∀ (q0 : Fin 8) (q1 : Fin 10), ∃ t : Fin cfg0.N, win0_7.index t = ![q0.val, q1.val, 0] :=
  (by decide +kernel : ∀ (q0 : Fin 8) (q1 : Fin 10), ∃ t : Fin grid0.N, win0_7.index t = ![q0.val, q1.val, 0])

private theorem zeroOffsets3 : (![0, 0, 0] : Fin 3 → Nat) = fun _ => 0 := funext fun a => by fin_cases a <;> rfl
private theorem zeroOffsets2 : (![0, 0] : Fin 2 → Nat) = fun _ => 0 := funext fun a => by fin_cases a <;> rfl
private theorem zeroOffsets1 : (![0] : Fin 1 → Nat) = fun _ => 0 := funext fun a => by fin_cases a <;> rfl

/-! ## One block -/

/-- The body's stored value at row `r`, label `l` of its block is the specification's value at span `512·k + r` of batch
    `b`, when the blocks it loaded are the arrays' blocks at (b, k): the hidden states of batch `b`, the span rows
    `512·k … 512·k + 511` of batch `b`, the parameter arrays whole. The block's span words are the array's, so they are in
    range; and the rows the block's words name in the block's hidden states are the rows they name in batch `b`. -/
private theorem block_value (A0 : FVec Ideal SHid .f32) (A1 : IVec SSpan 32) (A2 : FVec Ideal SWemb .f32)
    (A3 : FVec Ideal SW1 .f32) (A4 : FVec Ideal SB1 .f32) (A5 : FVec Ideal SW2 .f32) (A6 : FVec Ideal SB2 .f32)
    (x0 : Vec Ideal S1x512x768 .bf16) (x1 : Vec Ideal S1x512x3 .i32) (x2 : Vec Ideal S11x150 .bf16)
    (x3 : Vec Ideal S1686x768 .bf16) (x4 : Vec Ideal S768 .f32) (x5 : Vec Ideal S768x57 .bf16) (x6 : Vec Ideal S57 .f32)
    (hr : InRange A1) (b : Fin 8) (k : Fin 10)
    (h0 : ∀ (p : Fin 512) (d : Fin 768), x0 (ix3 (0 : Fin 1) p d) = A0 (ix3 b p d))
    (h1 : ∀ (r : Fin 512) (j : Fin 3), x1 (ix3 (0 : Fin 1) r j) = A1 (ix3 b (⟨512 * k.val + r.val, by omega⟩ : Fin 5120) j))
    (h2 : x2 = A2) (h3 : x3 = A3) (h4 : x4 = A4) (h5 : x5 = A5) (h6 : x6 = A6)
    (r : Fin 512) (l : Fin 57) :
    k0_pay1 (F := Ideal) (k0_pay2 (F := Ideal) x0 x1 x2 x3) (k0_pay3 (F := Ideal) x4) x5 x6 (ix3 (0 : Fin 1) r l)
      = G A0 A1 A2 A3 A4 A5 A6 (ix3 b (⟨512 * k.val + r.val, by omega⟩ : Fin 5120) l) := by
  have hs : ∀ r : Fin 512, (x1 (ix3 (0 : Fin 1) r (0 : Fin 3))).toNat < 512 := fun r => by rw [h1]; exact hr.start b _
  have he : ∀ r : Fin 512, (x1 (ix3 (0 : Fin 1) r (1 : Fin 3))).toNat < 512 := fun r => by rw [h1]; exact hr.stop b _
  have hw : ∀ r : Fin 512, (x1 (ix3 (0 : Fin 1) r (2 : Fin 3))).toNat < 11 := fun r => by rw [h1]; exact hr.width b _
  refine (payload_apply x0 x1 x2 x3 x4 x5 x6 hs he hw r l).trans ?_
  rw [G_apply]
  have hf : blockFeat x0 x1 x2 r = featAt A0 A1 A2 b (⟨512 * k.val + r.val, by omega⟩ : Fin 5120) := by
    unfold blockFeat featAt
    simp only [h1, h0, h2]
  rw [hf, h3, h4, h5, h6]

/-! ## The blocks the body loads, read off the argument arrays -/

/-- The hidden-state block at a grid point is batch `b` of the argument, `b` the point's batch coordinate. -/
private theorem hiddenBlock_apply (c : Dev nD) (t : Fin cfg0.N) (b : Fin 8) (hb : b.val = win0_7.index t (0 : Fin 3)) (p : Fin 512) (d : Fin 768) :
    (iblk m c 0 t : Vec Ideal S1x512x768 .bf16) (ix3 (0 : Fin 1) p d)
      = (m ((c : Thread nD τ).loc main_arg0) : FVec Ideal SHid .f32) (ix3 b p d) := by
  obtain ⟨e00, e01, e02, -⟩ := blockIndex_facts t
  refine Eq.trans ?_ (congrFun (hidden_as_read m c) _)
  show V m c main_v0 (((cfg0.win 0).blk t).view.emb (ix3 (0 : Fin 1) p d)) = V m c main_v0 (ix3 b p d)
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * p.val = p.val; omega
  | ⟨2, _⟩ => show win0_0.index t (2 : Fin 3) * 768 + 1 * d.val = d.val; omega

/-- The span block at a grid point is rows `512·k … 512·k + 511` of batch `b` of the span table, (b, k) the point's coordinates. -/
private theorem spanBlock_apply (c : Dev nD) (t : Fin cfg0.N) (b : Fin 8) (hb : b.val = win0_7.index t (0 : Fin 3))
    (k : Fin 10) (hk : k.val = win0_7.index t (1 : Fin 3)) (r : Fin 512) (j : Fin 3) :
    (iblk m c 1 t : Vec Ideal S1x512x3 .i32) (ix3 (0 : Fin 1) r j)
      = (m ((c : Thread nD τ).loc main_arg1) : IVec SSpan 32) (ix3 b (⟨512 * k.val + r.val, by omega⟩ : Fin 5120) j) := by
  obtain ⟨-, -, -, e10, e11, e12, -⟩ := blockIndex_facts t
  refine Eq.trans ?_ (congrFun (V_main_arg1 m c) _)
  show V m c main_arg1 (((cfg0.win 1).blk t).view.emb (ix3 (0 : Fin 1) r j)) = V m c main_arg1 (ix3 b (⟨512 * k.val + r.val, by omega⟩ : Fin 5120) j)
  refine congrArg _ (funext fun a => Fin.ext ?_)
  match a with
  | ⟨0, _⟩ => show win0_1.index t (0 : Fin 3) * 1 + 1 * 0 = b.val; omega
  | ⟨1, _⟩ => show win0_1.index t (1 : Fin 3) * 512 + 1 * r.val = 512 * k.val + r.val; omega
  | ⟨2, _⟩ => show win0_1.index t (2 : Fin 3) * 3 + 1 * j.val = j.val; omega

/-- The width-embedding block is the whole argument, -/
private theorem widthEmbBlock_eq (c : Dev nD) (t : Fin cfg0.N) :
    (iblk m c 2 t : Vec Ideal S11x150 .bf16) = (m ((c : Thread nD τ).loc main_arg2) : FVec Ideal SWemb .f32) := by
  obtain ⟨-, -, -, -, -, -, e20, e21, -⟩ := blockIndex_facts t
  refine Eq.trans ?_ (widthEmb_as_read m c)
  funext y
  show V m c main_v1 (((cfg0.win 2).blk t).view.emb y) = V m c main_v1 y
  refine congrArg _ (funext fun a => Fin.ext ?_)
  match a with
  | ⟨0, _⟩ => show win0_2.index t (0 : Fin 2) * 11 + 1 * (y 0).val = (y 0).val; omega
  | ⟨1, _⟩ => show win0_2.index t (1 : Fin 2) * 150 + 1 * (y 1).val = (y 1).val; omega

/-- the first weight matrix's block the whole argument, -/
private theorem weight1Block_eq (c : Dev nD) (t : Fin cfg0.N) :
    (iblk m c 3 t : Vec Ideal S1686x768 .bf16) = (m ((c : Thread nD τ).loc main_arg3) : FVec Ideal SW1 .f32) := by
  obtain ⟨-, -, -, -, -, -, -, -, e30, e31, -⟩ := blockIndex_facts t
  refine Eq.trans ?_ (weight1_as_read m c)
  funext y
  show V m c main_v2 (((cfg0.win 3).blk t).view.emb y) = V m c main_v2 y
  refine congrArg _ (funext fun a => Fin.ext ?_)
  match a with
  | ⟨0, _⟩ => show win0_3.index t (0 : Fin 2) * 1686 + 1 * (y 0).val = (y 0).val; omega
  | ⟨1, _⟩ => show win0_3.index t (1 : Fin 2) * 768 + 1 * (y 1).val = (y 1).val; omega

/-- the first bias's block the whole argument, -/
private theorem bias1Block_eq (c : Dev nD) (t : Fin cfg0.N) :
    (iblk m c 4 t : Vec Ideal S768 .f32) = (m ((c : Thread nD τ).loc main_arg4) : FVec Ideal SB1 .f32) := by
  obtain ⟨-, -, -, -, -, -, -, -, -, -, e40, -⟩ := blockIndex_facts t
  refine Eq.trans ?_ (V_main_arg4 m c)
  funext y
  show V m c main_arg4 (((cfg0.win 4).blk t).view.emb y) = V m c main_arg4 y
  refine congrArg _ (funext fun a => Fin.ext ?_)
  match a with
  | ⟨0, _⟩ => show win0_4.index t (0 : Fin 1) * 768 + 1 * (y 0).val = (y 0).val; omega

/-- the second weight matrix's block the whole argument, -/
private theorem weight2Block_eq (c : Dev nD) (t : Fin cfg0.N) :
    (iblk m c 5 t : Vec Ideal S768x57 .bf16) = (m ((c : Thread nD τ).loc main_arg5) : FVec Ideal SW2 .f32) := by
  obtain ⟨-, -, -, -, -, -, -, -, -, -, -, e50, e51, -⟩ := blockIndex_facts t
  refine Eq.trans ?_ (weight2_as_read m c)
  funext y
  show V m c main_v3 (((cfg0.win 5).blk t).view.emb y) = V m c main_v3 y
  refine congrArg _ (funext fun a => Fin.ext ?_)
  match a with
  | ⟨0, _⟩ => show win0_5.index t (0 : Fin 2) * 768 + 1 * (y 0).val = (y 0).val; omega
  | ⟨1, _⟩ => show win0_5.index t (1 : Fin 2) * 57 + 1 * (y 1).val = (y 1).val; omega

/-- and the second bias's block the whole argument. -/
private theorem bias2Block_eq (c : Dev nD) (t : Fin cfg0.N) :
    (iblk m c 6 t : Vec Ideal S57 .f32) = (m ((c : Thread nD τ).loc main_arg6) : FVec Ideal SB2 .f32) := by
  obtain ⟨-, -, -, -, -, -, -, -, -, -, -, -, -, e60, -⟩ := blockIndex_facts t
  refine Eq.trans ?_ (V_main_arg6 m c)
  funext y
  show V m c main_arg6 (((cfg0.win 6).blk t).view.emb y) = V m c main_arg6 y
  refine congrArg _ (funext fun a => Fin.ext ?_)
  match a with
  | ⟨0, _⟩ => show win0_6.index t (0 : Fin 1) * 57 + 1 * (y 0).val = (y 0).val; omega

/-! ## What a grid point writes back, and the whole array -/

/-- WHAT POINT `t` WRITES BACK is block `t` of the specification's function of the argument arrays. -/
private theorem written_eq (c : Dev nD) (hr : InRange (m ((c : Thread nD τ).loc main_arg1))) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  rw [Value.flushed7]
  unfold out0_7
  rw [View.canon_unit_zero zeroOffsets3]
  simp only [View.ld_unit_zero (S := S1x512x768) zeroOffsets3, View.ld_unit_zero (S := S1x512x3) zeroOffsets3,
    View.ld_unit_zero (S := S11x150) zeroOffsets2, View.ld_unit_zero (S := S1686x768) zeroOffsets2, View.ld_unit_zero (S := S768) zeroOffsets1,
    View.ld_unit_zero (S := S768x57) zeroOffsets2, View.ld_unit_zero (S := S57) zeroOffsets1]
  obtain ⟨-, -, -, -, -, -, -, -, -, -, -, -, -, -, e70, e71, e72⟩ := blockIndex_facts t
  refine funext fun (y : S1x512x57.Idx) => ?_
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  obtain ⟨r, l, rfl⟩ : ∃ (r : Fin 512) (l : Fin 57), y = ix3 (0 : Fin 1) r l := ⟨y 1, y 2, hy⟩
  clear hy
  have hemb : @Eq S8x5120x57.Idx (((cfg0.win 7).blk t).view.emb (ix3 (0 : Fin 1) r l))
      (ix3 (⟨win0_7.index t (0 : Fin 3), by omega⟩ : Fin 8)
        (⟨512 * (⟨win0_7.index t (1 : Fin 3), by omega⟩ : Fin 10).val + r.val, by omega⟩ : Fin 5120) l) := by
    refine funext fun a => Fin.ext ?_
    match a with
    | ⟨0, _⟩ => show win0_7.index t (0 : Fin 3) * 1 + 1 * 0 = win0_7.index t (0 : Fin 3); omega
    | ⟨1, _⟩ => show win0_7.index t (1 : Fin 3) * 512 + 1 * r.val = 512 * win0_7.index t (1 : Fin 3) + r.val; omega
    | ⟨2, _⟩ => show win0_7.index t (2 : Fin 3) * 57 + 1 * l.val = l.val; omega
  show k0_pay1 (F := Ideal) (k0_pay2 (F := Ideal) (iblk m c 0 t) (iblk m c 1 t) (iblk m c 2 t) (iblk m c 3 t))
      (k0_pay3 (F := Ideal) (iblk m c 4 t)) (iblk m c 5 t) (iblk m c 6 t) (ix3 (0 : Fin 1) r l)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 7).blk t).view.emb (ix3 (0 : Fin 1) r l))
  refine Eq.trans ?_ (congrArg _ hemb.symm)
  exact block_value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
    (iblk m c 0 t) (iblk m c 1 t) (iblk m c 2 t) (iblk m c 3 t) (iblk m c 4 t) (iblk m c 5 t) (iblk m c 6 t)
    hr ⟨win0_7.index t (0 : Fin 3), by omega⟩ ⟨win0_7.index t (1 : Fin 3), by omega⟩
    (hiddenBlock_apply m c t _ rfl) (spanBlock_apply m c t _ rfl _ rfl)
    (widthEmbBlock_eq m c t) (weight1Block_eq m c t) (bias1Block_eq m c t) (weight2Block_eq m c t) (bias2Block_eq m c t) r l

/-- An index of the result array is in point `t`'s block iff each coordinate is in the block's range on its axis. -/
private theorem mem_resultBlock (t : Fin cfg0.N) (i : S8x5120x57.Idx) :
    i ∈ ((cfg0.win 7).blk t).view.set ↔ ∀ a : Fin 3, win0_7.index t a * S1x512x57.size a ≤ (i a).val
      ∧ (i a).val < win0_7.index t a * S1x512x57.size a + S1x512x57.size a := by
  show i ∈ ((View.whole main_v4).slice (win0_7.rect t)).set ↔ _
  rw [View.set_slice_whole, Rect.mem_set_unit]
  exact Iff.rfl

/-- The 80 blocks tile the result array: index (b, n, l) is in the block of the point with coordinates (b, n / 512). -/
private theorem resultBlocks_cover (i : S8x5120x57.Idx) : ∃ t : Fin cfg0.N, (cfg0.win 7).flush t = true ∧ i ∈ ((cfg0.win 7).blk t).view.set := by
  have hi0 : (i 0).val < 8 := (i 0).isLt
  have hi1 : (i 1).val < 5120 := (i 1).isLt
  have hi2 : (i 2).val < 57 := (i 2).isLt
  obtain ⟨t, ht⟩ := point_of_block ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_resultBlock]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 57 ≤ (i 2).val ∧ (i 2).val < win0_7.index t (2 : Fin 3) * 57 + 57; omega

/-- The result array after the run is `G` of the argument arrays, when the span words are in range. -/
theorem final (c : Dev nD) (hr : InRange (m ((c : Thread nD τ).loc main_arg1))) :
    (dats m 0 c).arrAt 7 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  (dats m 0 c).arrAt_eq_of_cover 7 _ (fun t _ => written_eq m c hr t) resultBlocks_cover

/-- The kernel's run ends with the result array at `G` of the arguments and the arguments unchanged. -/
theorem run (hr : ∀ c : Dev nD, InRange (m ((c : Thread nD τ).loc main_arg1))) :
    θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hr c)), (h c).2⟩) (Cert.KernelIdeal.Value.run_blocks m ρ)

end Cert.SpanKernel

end
-- ==== Proof.lean ====
/-
  The kernel computes a span classifier: for each of 8 batches and 5120 spans, the hidden states at the span's start and
  end positions and the embedding of its width are laid side by side (1686 features), passed through a dense layer of
  768 units with a bias and a clamp at zero, and through an output layer of 57 units with a bias.

  The kernel reads the rows by products with rows of zeros holding a single one; the reference reads them by look-ups.
  The two agree when every span word names a row of the table it indexes (positions below 512, widths below 11, none
  negative), which the precondition states. On the extended reals 0 · x = 0 and 1 · x = x for every x, sums may be taken
  in any order, and a change of float format is the identity, so both programs end with the same function `G` of the
  arguments (Proof/Spec.lean): the kernel by Proof/KernelPayload.lean and Proof/KernelBlocks.lean, the reference by
  Proof/RefGather.lean and Proof/RefValue.lean; Proof/PreRange.lean reads the range facts out of the precondition.
-/
import proofs.«421113_j73753178407290_1_alg».proof.Defs
import proofs.«421113_j73753178407290_1_alg».proof.Proof.Gen.Kernel
import proofs.«421113_j73753178407290_1_alg».proof.Proof.Gen.Kernel.Skeleton
import proofs.«421113_j73753178407290_1_alg».proof.Proof.Gen.Kernel.Launch
import proofs.«421113_j73753178407290_1_alg».proof.Proof.Gen.Kernel.Points
import proofs.«421113_j73753178407290_1_alg».proof.Proof.Gen.Kernel.Frame
import proofs.«421113_j73753178407290_1_alg».proof.Proof.Gen.KernelIdeal
import proofs.«421113_j73753178407290_1_alg».proof.Proof.Gen.KernelIdeal.Skeleton
import proofs.«421113_j73753178407290_1_alg».proof.Proof.Gen.KernelIdeal.Launch
import proofs.«421113_j73753178407290_1_alg».proof.Proof.Gen.KernelIdeal.Points
import proofs.«421113_j73753178407290_1_alg».proof.Proof.Gen.KernelIdeal.Frame
import proofs.«421113_j73753178407290_1_alg».proof.Proof.Gen.ReferenceIdeal
import proofs.«421113_j73753178407290_1_alg».proof.Proof.Gen.Pre_finite_inputs
import proofs.«421113_j73753178407290_1_alg».proof.Proof.Gen.KernelIdeal.Value
import proofs.«421113_j73753178407290_1_alg».proof.Proof.RefRun
import proofs.«421113_j73753178407290_1_alg».proof.Proof.RefRead
import proofs.«421113_j73753178407290_1_alg».proof.Proof.PreRange
import proofs.«421113_j73753178407290_1_alg».proof.Proof.RefValue
import proofs.«421113_j73753178407290_1_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the result array at `G` of the arguments: the kernel block by block, the reference stage by
    stage, the span words in range by the precondition. -/
theorem algebraic : Cert.algebraic_KernelIdeal_ReferenceIdeal := by
  intro m ρ m' ρ' hpre hagree
  have hr : ∀ c : Dev Cert.KernelIdeal.nD, Cert.SpanSpec.InRange
      (m ((c.tc : Thread Cert.KernelIdeal.nD Cert.KernelIdeal.τ).loc Cert.KernelIdeal.main_arg1)) :=
    fun c => Cert.SpanPre.inRange_of_pre _ _ _ _ _ _ _ (hpre c)
  refine ⟨_, Cert.SpanKernel.run m ρ hr, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v26_eq, (hagree c).1, (hagree c).2.1, (hagree c).2.2.1, (hagree c).2.2.2.1,
    (hagree c).2.2.2.2.1, (hagree c).2.2.2.2.2.1, (hagree c).2.2.2.2.2.2]
  exact Cert.SpanRef.ref_eq_G _ _ _ _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
